-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x512 : Shape := ⟨3, ![32, 128, 512]⟩
abbrev S32 : Shape := ⟨1, ![32]⟩
abbrev S_ : Shape := ⟨0, ![]⟩

class Facts : Prop where
  bcast_S_S32x128x512 : S_.BroadcastsInDim S32x128x512 (![] : Fin 0 → Fin S32x128x512.rank)
  reducesTo_S32x128x512_S_d0_1_2 : S32x128x512.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x128x512 .f32) (main_arg1 : IVec S32 32) : IVec S_ 1 :=
  let main_v0 : FVec F S32x128x512 .f32 := Host.absf main_arg0
  let main_cst : FVec F S_ .f32 := constant S_ .f32 0x7F800000#32
  let main_v1 : FVec F S32x128x512 .f32 := broadcastInDim S32x128x512 ![] bcast_S_S32x128x512 main_cst
  let main_v2 : IVec S32x128x512 1 := cmpf .olt main_v0 main_v1
  let main_c : IVec S_ 1 := constantI S_ 1 1#1
  let main_v3 : IVec S_ 1 := (fun x v => Host.reduce IntOp.andi x v reducesTo_S32x128x512_S_d0_1_2 h_S_) main_v2 main_c
  let main_c_0 : IVec S_ 32 := constantI S_ 32 0#32
  let main_v4 : IVec S32 32 := broadcastInDim S32 ![] bcast_S_S32 main_c_0
  let main_v5 : IVec S32 1 := cmpi .sge main_arg1 main_v4
  let main_c_1 : IVec S_ 1 := constantI S_ 1 1#1
  let main_v6 : IVec S_ 1 := (fun x v => Host.reduce IntOp.andi x v reducesTo_S32_S_d0 h_S_) main_v5 main_c_1
  let main_v7 : IVec S_ 1 := andi main_v3 main_v6
  let main_c_2 : IVec S_ 32 := constantI S_ 32 19#32
  let main_v8 : IVec S32 32 := broadcastInDim S32 ![] bcast_S_S32 main_c_2
  let main_v9 : IVec S32 1 := cmpi .slt main_arg1 main_v8
  let main_c_3 : IVec S_ 1 := constantI S_ 1 1#1
  let main_v10 : IVec S_ 1 := (fun x v => Host.reduce IntOp.andi x v reducesTo_S32_S_d0 h_S_) main_v9 main_c_3
  let main_v11 : IVec S_ 1 := andi main_v7 main_v10
  main_v11
-- ==== Kernel.lean ====
abbrev S32x128x512 : Shape := ⟨3, ![32, 128, 512]⟩
abbrev S32 : Shape := ⟨1, ![32]⟩
abbrev S1x32 : Shape := ⟨2, ![1, 32]⟩
abbrev S128x32 : Shape := ⟨2, ![128, 32]⟩
abbrev S4096 : Shape := ⟨1, ![4096]⟩
abbrev S128x32x512 : Shape := ⟨3, ![128, 32, 512]⟩
abbrev S4096x512 : Shape := ⟨2, ![4096, 512]⟩
abbrev S_ : Shape := ⟨0, ![]⟩
abbrev S4096x1 : Shape := ⟨2, ![4096, 1]⟩
abbrev S1x4096 : Shape := ⟨2, ![1, 4096]⟩
abbrev S19 : Shape := ⟨1, ![19]⟩
abbrev S32x1 : Shape := ⟨2, ![32, 1]⟩
abbrev S1x19 : Shape := ⟨2, ![1, 19]⟩
abbrev S32x19 : Shape := ⟨2, ![32, 19]⟩
abbrev S256x1 : Shape := ⟨2, ![256, 1]⟩
abbrev S256x512 : Shape := ⟨2, ![256, 512]⟩
abbrev S256x4096 : Shape := ⟨2, ![256, 4096]⟩
abbrev S256 : Shape := ⟨1, ![256]⟩

abbrev nBuf : Space → Nat
  | .hbm => 59
  | .vmem => 8
  | .smem => 0
  | _ => 0

abbrev bufTy : (tb : Table) → Fin (tcTables nBuf tb) → BufTy
  | .hbm, ⟨0, _⟩ => ⟨S32x128x512, .f32⟩
  | .hbm, ⟨1, _⟩ => ⟨S32, .i32⟩
  | .hbm, ⟨2, _⟩ => ⟨S32, .i32⟩
  | .hbm, ⟨3, _⟩ => ⟨S1x32, .i32⟩
  | .hbm, ⟨4, _⟩ => ⟨S128x32, .i32⟩
  | .hbm, ⟨5, _⟩ => ⟨S4096, .i32⟩
  | .hbm, ⟨6, _⟩ => ⟨S128x32x512, .f32⟩
  | .hbm, ⟨7, _⟩ => ⟨S4096x512, .f32⟩
  | .hbm, ⟨8, _⟩ => ⟨S4096x512, .bf16⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S4096x1, .i32⟩
  | .hbm, ⟨19, _⟩ => ⟨S1x4096, .i32⟩
  | .hbm, ⟨20, _⟩ => ⟨S19, .i32⟩
  | .hbm, ⟨21, _⟩ => ⟨S32x1, .i32⟩
  | .hbm, ⟨22, _⟩ => ⟨S1x19, .i32⟩
  | .hbm, ⟨23, _⟩ => ⟨S32x19, .i32⟩
  | .hbm, ⟨24, _⟩ => ⟨S32x19, .i32⟩
  | .hbm, ⟨25, _⟩ => ⟨S32x19, .i1⟩
  | .hbm, ⟨26, _⟩ => ⟨S32x19, .f32⟩
  | .hbm, ⟨27, _⟩ => ⟨S_, .f32⟩
  | .hbm, ⟨28, _⟩ => ⟨S19, .f32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S4096x512, .bf16⟩
  | .local _ .vmem, ⟨1, _⟩ => ⟨S1x4096, .i32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | _, _ => ⟨S32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_c_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32_S1x32 : S32.ShapeCasts S1x32
  bcast_S1x32_S128x32_0_1 : S1x32.BroadcastsInDim S128x32 (![0, 1] : Fin 2 → Fin S128x32.rank)
  shapeCasts_S128x32_S4096 : S128x32.ShapeCasts S4096
  transposes_S32x128x512_S128x32x512_1_0_2 : S32x128x512.Transposes [1, 0, 2] S128x32x512
  shapeCasts_S128x32x512_S4096x512 : S128x32x512.ShapeCasts S4096x512
  bitsLt_bf16_f32 : FTy.bits .bf16 < FTy.bits .f32
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S4096x1 : S4096.ShapeCasts S4096x1
  shapeCasts_S4096_S1x4096 : S4096.ShapeCasts S1x4096
  bcast_S32_S32x1_0 : S32.BroadcastsInDim S32x1 (![0] : Fin 1 → Fin S32x1.rank)
  bcast_S19_S1x19_1 : S19.BroadcastsInDim S1x19 (![1] : Fin 1 → Fin S1x19.rank)
  bcast_S32x1_S32x19_0_1 : S32x1.BroadcastsInDim S32x19 (![0, 1] : Fin 2 → Fin S32x19.rank)
  bcast_S1x19_S32x19_0_1 : S1x19.BroadcastsInDim S32x19 (![0, 1] : Fin 2 → Fin S32x19.rank)
  reducesTo_S32x19_S19_d0 : S32x19.ReducesTo [0] S19
  h_S_ : 0 < S_.numel
  bcast_S_S32 : S_.BroadcastsInDim S32 (![] : Fin 0 → Fin S32.rank)
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x4096_S256 : S256x4096.Reduces [1] S256
  shapeCasts_S256_S256x1 : S256.ShapeCasts S256x1
  broadcasts_S256x1_S256x4096 : S256x1.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  iota_S256x1_d0_w32 : S256x1.Iotas .tc 32 [0]
  iota_S1x4096_d1_w32 : S1x4096.Iotas .tc 32 [1]
  reducesTo_S4096x1_S_d0_1 : S4096x1.ReducesTo [0, 1] S_
  gather_S32_S4096x1_S4096_n_0_n_n_0_1_1_wf : GatherDims.WF S32 S4096x1 S4096 [] [0] [] [0] [] 1 ![1]
  gather_S19_S32x1_S32_n_0_n_n_0_1_1_wf : GatherDims.WF S19 S32x1 S32 [] [0] [] [0] [] 1 ![1]
  dot_S256x512_S4096x512_S256x4096_1_1_0_0_n_n_wf : DotDims.WF S256x512 S4096x512 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x512.size a ≤ S4096x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .i32 = 32 ∨ (Rect.block (s := S1x4096) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def gather_S32_S4096x1_S4096_n_0_n_n_0_1_1 : GatherDims S32 S4096x1 S4096 where
  offsetDims := []
  collapsedSliceDims := [0]
  operandBatchingDims := []
  startIndicesBatchingDims := []
  startIndexMap := [0]
  indexVectorDim := 1
  sliceSizes := ![1]
  wf := gather_S32_S4096x1_S4096_n_0_n_n_0_1_1_wf
def gather_S19_S32x1_S32_n_0_n_n_0_1_1 : GatherDims S19 S32x1 S32 where
  offsetDims := []
  collapsedSliceDims := [0]
  operandBatchingDims := []
  startIndicesBatchingDims := []
  startIndexMap := [0]
  indexVectorDim := 1
  sliceSizes := ![1]
  wf := gather_S19_S32x1_S32_n_0_n_n_0_1_1_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v6) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x512 : Shape := ⟨3, ![32, 128, 512]⟩
abbrev S32 : Shape := ⟨1, ![32]⟩
abbrev S128x32x512 : Shape := ⟨3, ![128, 32, 512]⟩
abbrev S4096x512 : Shape := ⟨2, ![4096, 512]⟩
abbrev S32x1 : Shape := ⟨2, ![32, 1]⟩
abbrev S1x32 : Shape := ⟨2, ![1, 32]⟩
abbrev S32x32 : Shape := ⟨2, ![32, 32]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x32x1x32 : Shape := ⟨4, ![1, 32, 1, 32]⟩
abbrev S128x32x128x32 : Shape := ⟨4, ![128, 32, 128, 32]⟩

abbrev nBuf : Space → Nat
  | .hbm => 63
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S32, .i32⟩
  | .hbm, ⟨2, _⟩ => ⟨S128x32x512, .f32⟩
  | .hbm, ⟨3, _⟩ => ⟨S4096x512, .f32⟩
  | .hbm, ⟨4, _⟩ => ⟨S32x1, .i32⟩
  | .hbm, ⟨5, _⟩ => ⟨S32x1, .f32⟩
  | .hbm, ⟨6, _⟩ => ⟨S1x32, .f32⟩
  | .hbm, ⟨7, _⟩ => ⟨S32x32, .f32⟩
  | .hbm, ⟨8, _⟩ => ⟨S32x32, .f32⟩
  | .hbm, ⟨9, _⟩ => ⟨S32x32, .i1⟩
  | .hbm, ⟨10, _⟩ => ⟨S32x32, .f32⟩
  | .hbm, ⟨11, _⟩ => ⟨S512x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x32x1x32, .f32⟩
  | .hbm, ⟨22, _⟩ => ⟨S128x32x128x32, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  transposes_S32x128x512_S128x32x512_1_0_2 : S32x128x512.Transposes [1, 0, 2] S128x32x512
  shapeCasts_S128x32x512_S4096x512 : S128x32x512.ShapeCasts S4096x512
  shapeCasts_S32_S32x1 : S32.ShapeCasts S32x1
  transposes_S32x1_S1x32_1_0 : S32x1.Transposes [1, 0] S1x32
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S32x32_S1x32x1x32 : S32x32.ShapeCasts S1x32x1x32
  bcast_S1x32x1x32_S128x32x128x32_0_1_2_3 : S1x32x1x32.BroadcastsInDim S128x32x128x32 (![0, 1, 2, 3] : Fin 4 → Fin S128x32x128x32.rank)
  shapeCasts_S128x32x128x32_S4096x4096 : S128x32x128x32.ShapeCasts S4096x4096
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
/-
  The pixel-contrast loss as a function of its inputs, element by element on the extended reals.

  Row i of the flattened feature matrix is view i / 32 of anchor i % 32, and carries the class of that anchor. For one
  row with features q, against all 4096 rows with features K and classes c:
    raw j   = <q, K j>                              the row of the Gram matrix
    logit j = (raw j - max_j' raw j') / T           (1 / T the exact reciprocal of the divisor 9395241 / 2^27)
    neg     = sum over j of another class of exp (logit j)
    lp j    = logit j - log (exp (logit j) + neg)
    pos     = sum over j of the same class, j not the row itself, of lp j
    loss    = - pos / (count + eps),   count = 128 * (anchors of the row's class) - 1
  and the result is the mean of the 4096 row losses. Nothing here mentions a program.
-/
import Idealize.ShloMosaic.PureOps.Ideal
import Idealize.ShloMosaic.PureOps.Ideal.Laws
import Idealize.ShloMosaic.Lib.ValueIdx

noncomputable section

open scoped BigOperators

namespace PixelContrast

open Idealize.ShloMosaic Idealize.ShloMosaic.ValueIdx

/-- 1 / T: the reciprocal of the temperature as the reference divides by it, 2^27 / 9395241. -/
def invT : EReal := ((134217728 / 9395241 : ℝ) : EReal)

/-- The small number added to the positive count (the word of f32 1e-5; both programs carry it, it is never evaluated). -/
def eps : EReal := Ideal.ofBits .f32 0x3727C5AC#32

/-- The word of -1.0, the factor -(T / T_base) of both programs (never evaluated). -/
def negOne : EReal := Ideal.ofBits .f32 0xBF800000#32

/-- The word of 4096.0, the number of rows the mean divides by (never evaluated). -/
def nRows : EReal := Ideal.ofBits .f32 0x45800000#32

/-! ## One row against all rows -/

section Row

variable (qr : Fin 512 → EReal) (ks : Fin 4096 → Fin 512 → EReal) (cq : BitVec 32) (ck : Fin 4096 → BitVec 32)
  (r : ℕ) (d : EReal)

/-- The row's inner product with row j. -/
def raw (j : Fin 4096) : EReal := ∑ k : Fin 512, qr k * ks j k

/-- The largest of them. -/
def rawMax : EReal := (Finset.univ : Finset (Fin 4096)).fold max ⊥ (raw qr ks)

/-- The shifted, scaled logit. -/
def logit (j : Fin 4096) : EReal := (raw qr ks j - rawMax qr ks) * invT

/-- The mass of the other classes. -/
def negSum : EReal := ∑ j : Fin 4096, if cq = ck j then 0 else Ideal.exp (logit qr ks j)

/-- The log-probability of column j against the other classes. -/
def logProb (j : Fin 4096) : EReal :=
  logit qr ks j - Ideal.log (Ideal.exp (logit qr ks j) + negSum qr ks cq ck)

/-- Summed over the positives: the same class, not the row (number r) itself. -/
def posSum : EReal := ∑ j : Fin 4096, if cq = ck j ∧ r ≠ j.val then logProb qr ks cq ck j else 0

/-- The row's loss, over the positive count d. -/
def rowLossOf : EReal := negOne * Ideal.div (posSum qr ks cq ck r) (d + eps)

end Row

/-! ## All rows, from the two inputs -/

section All

variable (X : (⟨3, ![32, 128, 512]⟩ : Shape).Idx → EReal) (y : (⟨1, ![32]⟩ : Shape).Idx → BitVec 32)

/-- Row i of the feature matrix: view i / 32 of anchor i % 32. -/
def featOf (i : Fin 4096) (k : Fin 512) : EReal :=
  X (ix3 (⟨i.val % 32, Nat.mod_lt _ (by decide)⟩ : Fin 32) (⟨i.val / 32, by have := i.isLt; omega⟩ : Fin 128) k)

/-- Its class: that of anchor i % 32. -/
def clsOf (i : Fin 4096) : BitVec 32 := y (ix1 (⟨i.val % 32, Nat.mod_lt _ (by decide)⟩ : Fin 32))

/-- The number of positives of row i: the 128 views of every anchor of its class, less the row itself. -/
def posCount (i : Fin 4096) : EReal :=
  (128 : EReal) * (∑ a : Fin 32, if y (ix1 a) = clsOf y i then (1 : EReal) else 0) - 1

/-- Row i's loss. -/
def rowLoss (i : Fin 4096) : EReal :=
  rowLossOf (featOf X i) (featOf X) (clsOf y i) (clsOf y) i.val (posCount y i)

/-- The mean over the rows. -/
def loss : EReal := Ideal.div (0 + ∑ i : Fin 4096, rowLoss X y i) nRows

end All

end PixelContrast

end
-- ==== Proof.Consts.lean ====
/-
  The float words the two programs spell, as the extended reals they denote.
-/
import proofs.«423666_j37495064494136_3_alg».proof.Proof.Spec

noncomputable section

namespace PixelContrast

open Idealize.ShloMosaic

/-- The word of 1.0 denotes 1. -/
theorem ofBits_one : Ideal.ofBits .f32 0x3F800000#32 = 1 := by
  simp [Ideal.ofBits, Ideal.ieee, -EReal.coe_mul]; norm_num

/-- The word of 128.0 denotes 128. -/
theorem ofBits_128 : Ideal.ofBits .f32 0x43000000#32 = 128 := by
  simp [Ideal.ofBits, Ideal.ieee, -EReal.coe_mul]; norm_num; rfl

/-- The word of -inf denotes the bottom. -/
theorem ofBits_negInf : Ideal.ofBits .f32 0xFF800000#32 = ⊥ := by
  simp [Ideal.ofBits, Ideal.ieee]

/-- The reference's divisor, the word of f32 0.07, denotes 9395241 / 2^27. -/
theorem ofBits_temp : Ideal.ofBits .f32 0x3D8F5C29#32 = ((9395241 / 134217728 : ℝ) : EReal) := by
  simp [Ideal.ofBits, Ideal.ieee, -EReal.coe_mul]; norm_num

end PixelContrast

end
-- ==== Proof.SpecMath.lean ====
/-
  The two laws that join the kernel's and the reference's arrangements of the loss.
-/
import proofs.«423666_j37495064494136_3_alg».proof.Proof.Consts
import Mathlib.Algebra.BigOperators.Fin
import Mathlib.Logic.Equiv.Fin.Basic

noncomputable section

open scoped BigOperators

namespace PixelContrast

open Idealize.ShloMosaic Idealize.ShloMosaic.ValueIdx

/-! ## Coercions of the reals into the extended reals -/

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with max. -/
private theorem coe_max (x y : ℝ) : ((max x y : ℝ) : EReal) = max (x : EReal) (y : EReal) :=
  EReal.coe_strictMono.monotone.map_max

/-! ## Finite features give finite inner products -/

theorem raw_real (qr : Fin 512 → EReal) (ks : Fin 4096 → Fin 512 → EReal) (hq : ∀ k, ∃ x : ℝ, qr k = (x : EReal))
    (hk : ∀ j k, ∃ x : ℝ, ks j k = (x : EReal)) (j : Fin 4096) : ∃ x : ℝ, raw qr ks j = (x : EReal) := by
  choose a ha using hq
  choose b hb using hk
  refine ⟨∑ k, a k * b j k, ?_⟩
  unfold raw
  rw [coe_sum]
  refine Finset.sum_congr rfl fun k _ => ?_
  rw [ha, hb, EReal.coe_mul]

/-! ## Dividing by T before the maximum, or multiplying by 1 / T after it -/

/-- Over a nonempty finite set, the fold of max from the bottom over coerced reals is a coerced real m, and scaling every
    term by a factor t ≥ 0 scales the fold to m * t. -/
private theorem fold_max_scale {ι : Type*} (s : Finset ι) (hs : s.Nonempty) (f : ι → ℝ) (t : ℝ) (ht : 0 ≤ t) :
    ∃ m : ℝ, s.fold max ⊥ (fun j => (f j : EReal)) = (m : EReal)
      ∧ s.fold max ⊥ (fun j => ((f j * t : ℝ) : EReal)) = ((m * t : ℝ) : EReal) := by
  classical
  induction hs using Finset.Nonempty.cons_induction with
  | singleton a =>
    refine ⟨f a, ?_, ?_⟩ <;> simp [Finset.fold_singleton]
  | cons a s ha hs ih =>
    obtain ⟨m, h1, h2⟩ := ih
    refine ⟨max (f a) m, ?_, ?_⟩
    · rw [Finset.fold_cons, h1, coe_max]
    · rw [Finset.fold_cons, h2, ← coe_max, max_mul_of_nonneg _ _ ht]

/-- For finite inner products, the reference's "divide the row by T, then subtract the row's maximum" is the kernel's
    "subtract the maximum, then multiply by 1 / T": a positive factor commutes with the maximum and distributes over the
    difference of two reals. -/
theorem logit_of_div (qr : Fin 512 → EReal) (ks : Fin 4096 → Fin 512 → EReal)
    (hreal : ∀ j, ∃ x : ℝ, raw qr ks j = (x : EReal)) (j : Fin 4096) :
    Ideal.div (raw qr ks j) (Ideal.ofBits .f32 0x3D8F5C29#32)
        - (Finset.univ : Finset (Fin 4096)).fold max ⊥
            (fun j' => Ideal.div (raw qr ks j') (Ideal.ofBits .f32 0x3D8F5C29#32))
      = logit qr ks j := by
  choose f hf using hreal
  -- the quotient by T is the product with the real 1 / T
  have hdiv : ∀ j', Ideal.div (raw qr ks j') (Ideal.ofBits .f32 0x3D8F5C29#32)
      = ((f j' * (134217728 / 9395241) : ℝ) : EReal) := by
    intro j'
    rw [ofBits_temp, Ideal.div_coe (by norm_num), hf, ← EReal.coe_mul]
    congr 1
    norm_num
  have hraw : raw qr ks = fun j' => (f j' : EReal) := funext hf
  -- both maxima are real: m, and m / T
  obtain ⟨m, h1, h2⟩ := fold_max_scale (Finset.univ : Finset (Fin 4096)) ⟨j, Finset.mem_univ _⟩ f
    (134217728 / 9395241) (by norm_num)
  simp only [hdiv]
  rw [h2]
  unfold logit rawMax invT
  rw [hraw, h1, ← EReal.coe_sub, ← EReal.coe_sub, ← EReal.coe_mul, sub_mul]

/-! ## Counting the positives of a row -/

/-- A sum over the 4096 columns of a function of the column's anchor j % 32 is 128 times the sum over the 32 anchors:
    column j is the pair (view j / 32, anchor j % 32). -/
private theorem sum_mod (g : Fin 32 → ℝ) :
    (∑ j : Fin 4096, g ⟨j.val % 32, Nat.mod_lt _ (by decide)⟩) = 128 * ∑ a : Fin 32, g a := by
  have h : ∀ p : Fin 128 × Fin 32,
      (⟨((finProdFinEquiv : Fin 128 × Fin 32 ≃ Fin 4096) p).val % 32, Nat.mod_lt _ (by decide)⟩ : Fin 32) = p.2 := by
    intro p
    apply Fin.ext
    show (p.2.val + 32 * p.1.val) % 32 = p.2.val
    rw [Nat.add_mul_mod_self_left, Nat.mod_eq_of_lt p.2.isLt]
  rw [← Equiv.sum_comp (finProdFinEquiv : Fin 128 × Fin 32 ≃ Fin 4096)]
  simp only [h]
  rw [Fintype.sum_prod_type]
  simp

/-- Row r's positives, counted column by column (the same class, not the row itself), are the 128 views of each anchor
    of its class less one. -/
theorem count_pos (y : Fin 32 → BitVec 32) (r : Fin 4096) :
    (∑ j : Fin 4096,
        (if y ⟨r.val % 32, Nat.mod_lt _ (by decide)⟩ = y ⟨j.val % 32, Nat.mod_lt _ (by decide)⟩ then (1 : EReal) else 0)
          * (1 - (if r = j then (1 : EReal) else 0)))
      = 128 * (∑ a : Fin 32, if y a = y ⟨r.val % 32, Nat.mod_lt _ (by decide)⟩ then (1 : EReal) else 0) - 1 := by
  -- every term is the coercion of the real (same class) - (the row itself): the row itself is of its own class
  have hterm : ∀ j : Fin 4096,
      (if y ⟨r.val % 32, Nat.mod_lt _ (by decide)⟩ = y ⟨j.val % 32, Nat.mod_lt _ (by decide)⟩ then (1 : EReal) else 0)
          * (1 - (if r = j then (1 : EReal) else 0))
        = (((if y ⟨j.val % 32, Nat.mod_lt _ (by decide)⟩ = y ⟨r.val % 32, Nat.mod_lt _ (by decide)⟩ then (1 : ℝ) else 0)
            - (if r = j then (1 : ℝ) else 0) : ℝ) : EReal) := by
    intro j
    have h11 : (1 : EReal) - 1 = 0 := by
      rw [← EReal.coe_one, ← EReal.coe_sub, sub_self, EReal.coe_zero]
    by_cases hrj : r = j
    · subst hrj
      simp [h11]
    · by_cases hc : y ⟨r.val % 32, Nat.mod_lt _ (by decide)⟩ = y ⟨j.val % 32, Nat.mod_lt _ (by decide)⟩
      · simp [hrj, hc]
      · simp [hrj, hc, Ne.symm hc]
  have hind : ∀ a : Fin 32,
      (if y a = y ⟨r.val % 32, Nat.mod_lt _ (by decide)⟩ then (1 : EReal) else 0)
        = (((if y a = y ⟨r.val % 32, Nat.mod_lt _ (by decide)⟩ then (1 : ℝ) else 0) : ℝ) : EReal) := by
    intro a
    split_ifs <;> simp
  -- the algebra is done in the reals
  simp only [hterm, hind]
  rw [← coe_sum, ← coe_sum, Finset.sum_sub_distrib,
    sum_mod (fun a => if y a = y ⟨r.val % 32, Nat.mod_lt _ (by decide)⟩ then (1 : ℝ) else 0),
    Finset.sum_ite_eq, if_pos (Finset.mem_univ _),
    show (128 : EReal) = ((128 : ℝ) : EReal) by norm_cast,
    show (1 : EReal) = ((1 : ℝ) : EReal) by norm_cast,
    ← EReal.coe_mul, ← EReal.coe_sub]

end PixelContrast

end
-- ==== Proof.RefLoss.lean ====
/-
  The reference program's value: each row's loss, and their mean, are the specification's.
-/
import proofs.«423666_j37495064494136_3_alg».proof.Proof.RefRead
import proofs.«423666_j37495064494136_3_alg».proof.Proof.SpecMath

noncomputable section

open scoped BigOperators

namespace Cert.ReferenceIdeal.RefLoss

open Cert.ReferenceIdeal Cert.ReferenceIdeal.Gen Cert.ReferenceIdeal.Read Idealize.ShloMosaic Idealize.ShloMosaic.ValueIdx

/-! ## The features, the Gram matrix and the logits -/

/-- Row i of the flattened feature matrix, entry k: view i / 32 of anchor i % 32. -/
private theorem feat_eq (x0 : (⟨S32x128x512, .f32⟩ : BufTy).Contents (Elt Ideal)) (i : Fin 4096) (k : Fin 512) :
    val_main_v1 (F := Ideal) x0 (ix2 i k) = PixelContrast.featOf x0 i k := by
  rw [val_main_v1_apply, val_main_v0_apply]
  unfold PixelContrast.featOf
  refine congrArg x0 (funext fun a => Fin.ext ?_)
  match a with
  | ⟨0, _⟩ => show (i.val * 512 + k.val) / 512 % 32 = i.val % 32; omega
  | ⟨1, _⟩ => show (i.val * 512 + k.val) / 16384 = i.val / 32; omega
  | ⟨2, _⟩ => show (i.val * 512 + k.val) % 512 = k.val; omega

/-- The Gram matrix's entry (r, j) is the inner product of rows r and j. -/
private theorem gram_eq (x0 : (⟨S32x128x512, .f32⟩ : BufTy).Contents (Elt Ideal)) (r j : Fin 4096) :
    val_main_v10 (F := Ideal) x0 (ix2 r j)
      = PixelContrast.raw (PixelContrast.featOf x0 r) (PixelContrast.featOf x0) j := by
  rw [val_main_v10_apply]
  unfold PixelContrast.raw
  refine Finset.sum_congr rfl fun k _ => ?_
  rw [val_main_v9_apply]
  have e1 : lidx_main_v10 (ix2 r j) k = ix2 r k :=
    funext fun a => by match a with | ⟨0, _⟩ => rfl | ⟨1, _⟩ => rfl
  have e2 : idx_main_v9 (ridx_main_v10 (ix2 r j) k) = ix2 j k :=
    funext fun a => by match a with | ⟨0, _⟩ => rfl | ⟨1, _⟩ => rfl
  rw [e1, e2, feat_eq, feat_eq]

/-- Divided by the temperature. -/
private theorem div_eq (x0 : (⟨S32x128x512, .f32⟩ : BufTy).Contents (Elt Ideal)) (r j : Fin 4096) :
    val_main_v12 (F := Ideal) x0 (ix2 r j)
      = Ideal.div (PixelContrast.raw (PixelContrast.featOf x0 r) (PixelContrast.featOf x0) j)
          (Ideal.ofBits .f32 0x3D8F5C29#32) := by
  rw [val_main_v12_apply, val_main_v11_apply, val_main_cst_apply, gram_eq, Ideal.hostDivf_def, Ideal.ofBits_def]

/-- A maximum over axis 1 of a [4096, 4096] array, read at row r: the fold of max over the row's entries. -/
private theorem rowmax_fold (x : (⟨S4096x4096, .f32⟩ : BufTy).Contents (Elt Ideal))
    (init : (⟨S_, .f32⟩ : BufTy).Contents (Elt Ideal)) (r : Fin 4096) :
    Host.reduce (α := EReal) (FloatOps.maximumf (F := Ideal) (φ := .f32)) x init reducesTo_S4096x4096_S4096_d1 h_S_ (ix1 r)
      = (Finset.univ : Finset (Fin 4096)).fold max (init (Shape.Idx.first h_S_)) (fun k => x (ix2 r k)) := by
  have h : S4096x4096.Reduces [1] S4096 := by decide
  have hh := Host.reduce_eq_fold_single (max : EReal → EReal → EReal) x init reducesTo_S4096x4096_S4096_d1 h h_S_ (ix1 r)
  have ef : (x ∘ h.lift (ix1 r)) = (fun k : Fin 4096 => x (ix2 r k)) := by
    funext k
    have e : h.lift (ix1 r) k = ix2 r k :=
      funext fun a => Fin.ext (by match a with | ⟨0, _⟩ => rfl | ⟨1, _⟩ => rfl)
    exact congrArg x e
  rw [ef] at hh
  exact hh

/-- The row's maximum is the fold of max over the row. -/
private theorem max_eq (x0 : (⟨S32x128x512, .f32⟩ : BufTy).Contents (Elt Ideal)) (r : Fin 4096) :
    val_main_v13 (F := Ideal) x0 (ix1 r)
      = (Finset.univ : Finset (Fin 4096)).fold max ⊥
          (fun j' => Ideal.div (PixelContrast.raw (PixelContrast.featOf x0 r) (PixelContrast.featOf x0) j')
            (Ideal.ofBits .f32 0x3D8F5C29#32)) := by
  unfold val_main_v13
  refine (rowmax_fold (val_main_v12 (F := Ideal) x0) (val_main_cst_0 (F := Ideal)) r).trans ?_
  have e0 : val_main_cst_0 (F := Ideal) (Shape.Idx.first h_S_) = ⊥ := by
    rw [val_main_cst_0_apply, Ideal.ofBits_def, PixelContrast.ofBits_negInf]
  rw [e0]
  exact congrArg (fun f => Finset.fold max ⊥ f Finset.univ) (funext fun k => div_eq x0 r k)

/-- The logits: divided by the temperature, less the row's maximum. -/
private theorem logit_eq (x0 : (⟨S32x128x512, .f32⟩ : BufTy).Contents (Elt Ideal))
    (hfin : ∀ idx, ∃ x : ℝ, x0 idx = (x : EReal)) (r j : Fin 4096) :
    val_main_v16 (F := Ideal) x0 (ix2 r j)
      = PixelContrast.logit (PixelContrast.featOf x0 r) (PixelContrast.featOf x0) j := by
  rw [val_main_v16_apply, val_main_v15_apply, val_main_v14_apply]
  have e : idx_main_v14 (idx_main_v15 (ix2 r j)) = ix1 r :=
    funext fun a => by match a with | ⟨0, _⟩ => rfl
  rw [e, max_eq, div_eq, Ideal.subf_def]
  refine PixelContrast.logit_of_div _ _ (fun j' => ?_) j
  exact PixelContrast.raw_real _ _ (fun k => hfin _) (fun j'' k => hfin _) j'

/-! ## The two masks -/

private theorem one_sub_one : (1 : EReal) - 1 = 0 := by
  rw [← EReal.coe_one, ← EReal.coe_sub, sub_self, EReal.coe_zero]

private theorem one_sub_zero : (1 : EReal) - 0 = 1 := sub_zero _

/-- "The signed readings of two words are equal", as the number 0 or 1, is the words' equality. -/
private theorem eqmask_word (u v : BitVec 32) :
    FloatOps.uitofp (F := Ideal) .f32
        (FloatOps.cmpf (F := Ideal) (φ := .f32) .oeq (FloatOps.sitofp .f32 u) (FloatOps.sitofp .f32 v))
      = if u = v then (1 : EReal) else 0 := by
  have hs : ∀ b : BitVec 32, FloatOps.sitofp (F := Ideal) .f32 b = ((b.toInt : ℝ) : EReal) := fun _ => rfl
  have hu : ∀ b : BitVec 1, FloatOps.uitofp (F := Ideal) .f32 b = ((b.toNat : ℝ) : EReal) := fun _ => rfl
  rw [hs, hs, hu, Ideal.cmpf_def]
  unfold Ideal.cmp
  by_cases h : u = v
  · subst h; simp
  · have hne : ¬ (((u.toInt : ℝ) : EReal) = ((v.toInt : ℝ) : EReal)) := by
      rw [EReal.coe_eq_coe_iff, Int.cast_inj, BitVec.toInt_inj]; exact h
    simp [hne, h]

/-- The anchors' class mask, entry (a, b). -/
private theorem small_mask (x1 : (⟨S32, .i32⟩ : BufTy).Contents (Elt Ideal)) (a b : Fin 32) :
    val_main_v8 (F := Ideal) x1 (ix2 a b) = if x1 (ix1 a) = x1 (ix1 b) then (1 : EReal) else 0 := by
  rw [val_main_v8_apply, val_main_v7_apply, val_main_v5_apply, val_main_v6_apply, val_main_v4_apply,
    val_main_v3_apply, val_main_v3_apply, val_main_v2_apply, val_main_v2_apply]
  have ea : idx_main_v2 (idx_main_v5 (ix2 a b)) = ix1 a :=
    funext fun c => Fin.ext (by match c with | ⟨0, _⟩ => show a.val * 1 + 0 = a.val; omega)
  have eb : idx_main_v2 (idx_main_v4 (idx_main_v6 (ix2 a b))) = ix1 b :=
    funext fun c => Fin.ext (by match c with | ⟨0, _⟩ => show b.val * 1 + 0 = b.val; omega)
  rw [ea, eb]
  exact eqmask_word _ _

/-- The tiled class mask, entry (r, j): the classes of anchors r % 32 and j % 32. -/
private theorem mask_eq (x1 : (⟨S32, .i32⟩ : BufTy).Contents (Elt Ideal)) (r j : Fin 4096) :
    val_main_v19 (F := Ideal) x1 (ix2 r j)
      = if PixelContrast.clsOf x1 r = PixelContrast.clsOf x1 j then (1 : EReal) else 0 := by
  rw [val_main_v19_apply, val_main_v18_apply, val_main_v17_apply]
  have e : idx_main_v17 (idx_main_v18 (idx_main_v19 (ix2 r j)))
      = ix2 (⟨r.val % 32, Nat.mod_lt _ (by decide)⟩ : Fin 32) (⟨j.val % 32, Nat.mod_lt _ (by decide)⟩ : Fin 32) :=
    funext fun c => Fin.ext (by
      match c with
      | ⟨0, _⟩ =>
        show (((0 * 32 + (r.val * 4096 + j.val) / 4096 % 32) * 1 + 0) * 32 + (r.val * 4096 + j.val) % 32) / 32 = r.val % 32
        omega
      | ⟨1, _⟩ =>
        show (((0 * 32 + (r.val * 4096 + j.val) / 4096 % 32) * 1 + 0) * 32 + (r.val * 4096 + j.val) % 32) % 32 = j.val % 32
        omega)
  rw [e, small_mask]
  rfl

/-- "Row number plus zero equals column number", on 32-bit words of numbers below 4096, as the number 0 or 1. -/
private theorem eye_word (r j : Fin 4096) :
    FloatOps.uitofp (F := Ideal) .f32 (IntOp.cmpi .eq (IntOp.addi (BitVec.ofNat 32 r.val) 0#32) (BitVec.ofNat 32 j.val))
      = if r = j then (1 : EReal) else 0 := by
  have hu : ∀ b : BitVec 1, FloatOps.uitofp (F := Ideal) .f32 b = ((b.toNat : ℝ) : EReal) := fun _ => rfl
  rw [hu]
  unfold IntOp.cmpi IntOp.addi
  by_cases h : r = j
  · subst h; simp
  · have hne : ¬ (BitVec.ofNat 32 r.val = BitVec.ofNat 32 j.val) := by
      intro he
      have h2 := congrArg BitVec.toNat he
      simp only [BitVec.toNat_ofNat] at h2
      have hr := r.isLt
      have hj := j.isLt
      exact h (Fin.ext (by omega))
    simp [hne, h]

/-- The diagonal, entry (r, j). -/
private theorem eye_eq (r j : Fin 4096) :
    val_main_v27 (F := Ideal) (ix2 r j) = if r = j then (1 : EReal) else 0 := by
  rw [val_main_v27_apply, val_main_v26_apply, val_main_v25_apply, val_main_v22_apply, val_main_v23_apply,
    val_main_v24_apply, val_main_c_apply]
  exact eye_word r j

/-- One minus the class mask. -/
private theorem negmask_eq (x1 : (⟨S32, .i32⟩ : BufTy).Contents (Elt Ideal)) (r j : Fin 4096) :
    val_main_v21 (F := Ideal) x1 (ix2 r j)
      = if PixelContrast.clsOf x1 r = PixelContrast.clsOf x1 j then (0 : EReal) else 1 := by
  rw [val_main_v21_apply, val_main_v20_apply, val_main_cst_1_apply, mask_eq, Ideal.subf_def, Ideal.ofBits_def,
    PixelContrast.ofBits_one]
  split_ifs
  · exact one_sub_one
  · exact one_sub_zero

/-- The positives' mask: the class mask times one minus the diagonal. -/
private theorem posmask_eq (x1 : (⟨S32, .i32⟩ : BufTy).Contents (Elt Ideal)) (r j : Fin 4096) :
    val_main_v30 (F := Ideal) x1 (ix2 r j)
      = (if PixelContrast.clsOf x1 r = PixelContrast.clsOf x1 j then (1 : EReal) else 0)
          * (1 - (if r = j then (1 : EReal) else 0)) := by
  rw [val_main_v30_apply, val_main_v29_apply, val_main_v28_apply, val_main_cst_2_apply, mask_eq, eye_eq,
    Ideal.mulf_def, Ideal.subf_def, Ideal.ofBits_def, PixelContrast.ofBits_one]

/-! ## The row's sums -/

/-- The exponential, kept off the row's own class. -/
private theorem expneg_eq (x0 : (⟨S32x128x512, .f32⟩ : BufTy).Contents (Elt Ideal)) (x1 : (⟨S32, .i32⟩ : BufTy).Contents (Elt Ideal)) (hfin : ∀ idx, ∃ x : ℝ, x0 idx = (x : EReal)) (r j : Fin 4096) :
    val_main_v32 (F := Ideal) x0 x1 (ix2 r j)
      = if PixelContrast.clsOf x1 r = PixelContrast.clsOf x1 j then 0
        else Ideal.exp (PixelContrast.logit (PixelContrast.featOf x0 r) (PixelContrast.featOf x0) j) := by
  rw [val_main_v32_apply, val_main_v31_apply, logit_eq x0 hfin, negmask_eq, Ideal.mulf_def, Ideal.hostUnary_exp_def]
  split_ifs
  · exact mul_zero _
  · exact mul_one _

/-- The mass of the other classes. -/
private theorem negsum_eq (x0 : (⟨S32x128x512, .f32⟩ : BufTy).Contents (Elt Ideal)) (x1 : (⟨S32, .i32⟩ : BufTy).Contents (Elt Ideal)) (hfin : ∀ idx, ∃ x : ℝ, x0 idx = (x : EReal)) (r : Fin 4096) :
    val_main_v33 (F := Ideal) x0 x1 (ix1 r) = PixelContrast.negSum (PixelContrast.featOf x0 r) (PixelContrast.featOf x0) (PixelContrast.clsOf x1 r) (PixelContrast.clsOf x1) := by
  rw [val_main_v33_apply, val_main_cst_3_apply, Ideal.ofBits_def, Ideal.ofBits_zero_f32, zero_add]
  unfold PixelContrast.negSum
  refine Finset.sum_congr rfl fun k _ => ?_
  have e : idx_main_v33 (ix1 r) k = ix2 r k :=
    funext fun a => by match a with | ⟨0, _⟩ => rfl | ⟨1, _⟩ => rfl
  rw [e, expneg_eq x0 x1 hfin]

/-- The log-probability of column j. -/
private theorem logprob_eq (x0 : (⟨S32x128x512, .f32⟩ : BufTy).Contents (Elt Ideal)) (x1 : (⟨S32, .i32⟩ : BufTy).Contents (Elt Ideal)) (hfin : ∀ idx, ∃ x : ℝ, x0 idx = (x : EReal)) (r j : Fin 4096) :
    val_main_v38 (F := Ideal) x0 x1 (ix2 r j) = PixelContrast.logProb (PixelContrast.featOf x0 r) (PixelContrast.featOf x0) (PixelContrast.clsOf x1 r) (PixelContrast.clsOf x1) j := by
  rw [val_main_v38_apply, val_main_v37_apply, val_main_v36_apply, val_main_v35_apply, val_main_v34_apply,
    val_main_v31_apply]
  have e : idx_main_v34 (idx_main_v35 (ix2 r j)) = ix1 r :=
    funext fun a => by match a with | ⟨0, _⟩ => rfl
  rw [e, negsum_eq x0 x1 hfin, logit_eq x0 hfin, Ideal.subf_def, Ideal.addf_def, Ideal.hostUnary_log_def,
    Ideal.hostUnary_exp_def]
  rfl

/-- The log-probability, kept on the positives. -/
private theorem posterm_eq (x0 : (⟨S32x128x512, .f32⟩ : BufTy).Contents (Elt Ideal)) (x1 : (⟨S32, .i32⟩ : BufTy).Contents (Elt Ideal)) (hfin : ∀ idx, ∃ x : ℝ, x0 idx = (x : EReal)) (r j : Fin 4096) :
    val_main_v39 (F := Ideal) x0 x1 (ix2 r j)
      = if PixelContrast.clsOf x1 r = PixelContrast.clsOf x1 j ∧ r.val ≠ j.val then
          PixelContrast.logProb (PixelContrast.featOf x0 r) (PixelContrast.featOf x0) (PixelContrast.clsOf x1 r) (PixelContrast.clsOf x1) j
        else 0 := by
  rw [val_main_v39_apply, posmask_eq, logprob_eq x0 x1 hfin, Ideal.mulf_def]
  by_cases hc : PixelContrast.clsOf x1 r = PixelContrast.clsOf x1 j
  · by_cases hd : r = j
    · have hv : ¬ (PixelContrast.clsOf x1 r = PixelContrast.clsOf x1 j ∧ r.val ≠ j.val) :=
        fun h => h.2 (congrArg Fin.val hd)
      rw [if_pos hc, if_pos hd, if_neg hv, one_sub_one, mul_zero, zero_mul]
    · have hv : r.val ≠ j.val := fun h => hd (Fin.ext h)
      rw [if_pos hc, if_neg hd, if_pos ⟨hc, hv⟩, one_sub_zero, mul_one, one_mul]
  · have hv : ¬ (PixelContrast.clsOf x1 r = PixelContrast.clsOf x1 j ∧ r.val ≠ j.val) := fun h => hc h.1
    rw [if_neg hc, if_neg hv, zero_mul, zero_mul]

/-- Summed over the positives. -/
private theorem possum_eq (x0 : (⟨S32x128x512, .f32⟩ : BufTy).Contents (Elt Ideal)) (x1 : (⟨S32, .i32⟩ : BufTy).Contents (Elt Ideal)) (hfin : ∀ idx, ∃ x : ℝ, x0 idx = (x : EReal)) (r : Fin 4096) :
    val_main_v40 (F := Ideal) x0 x1 (ix1 r) = PixelContrast.posSum (PixelContrast.featOf x0 r) (PixelContrast.featOf x0) (PixelContrast.clsOf x1 r) (PixelContrast.clsOf x1) r.val := by
  rw [val_main_v40_apply, val_main_cst_4_apply, Ideal.ofBits_def, Ideal.ofBits_zero_f32, zero_add]
  unfold PixelContrast.posSum
  refine Finset.sum_congr rfl fun k _ => ?_
  have e : idx_main_v40 (ix1 r) k = ix2 r k :=
    funext fun a => by match a with | ⟨0, _⟩ => rfl | ⟨1, _⟩ => rfl
  rw [e, posterm_eq x0 x1 hfin]

/-- The number of positives. -/
private theorem count_eq (x1 : (⟨S32, .i32⟩ : BufTy).Contents (Elt Ideal)) (r : Fin 4096) :
    val_main_v41 (F := Ideal) x1 (ix1 r) = PixelContrast.posCount x1 r := by
  rw [val_main_v41_apply, val_main_cst_5_apply, Ideal.ofBits_def, Ideal.ofBits_zero_f32, zero_add]
  have hs : ∑ k : Fin 4096, val_main_v30 (F := Ideal) x1 (idx_main_v41 (ix1 r) k)
      = ∑ j : Fin 4096,
          (if (fun a : Fin 32 => x1 (ix1 a)) ⟨r.val % 32, Nat.mod_lt _ (by decide)⟩
                = (fun a : Fin 32 => x1 (ix1 a)) ⟨j.val % 32, Nat.mod_lt _ (by decide)⟩ then (1 : EReal) else 0)
            * (1 - (if r = j then (1 : EReal) else 0)) := by
    refine Finset.sum_congr rfl fun k _ => ?_
    have e : idx_main_v41 (ix1 r) k = ix2 r k :=
      funext fun a => by match a with | ⟨0, _⟩ => rfl | ⟨1, _⟩ => rfl
    rw [e, posmask_eq]
    rfl
  rw [hs]
  exact PixelContrast.count_pos (fun a => x1 (ix1 a)) r

/-! ## The row's loss and the mean -/

/-- The rows' indices are the numbers below 4096. -/
private def rowIdx : Fin 4096 ≃ S4096.Idx where
  toFun := ix1
  invFun j := j 0
  left_inv _ := rfl
  right_inv j := (eq_ix1 j).symm

/-- Row r of the reference's loss vector (before the mean) is the specification's row loss, for finite features. -/
theorem ref_row (x0 : (⟨S32x128x512, .f32⟩ : BufTy).Contents (Elt Ideal)) (x1 : (⟨S32, .i32⟩ : BufTy).Contents (Elt Ideal))
    (hfin : ∀ idx, ∃ x : ℝ, x0 idx = (x : EReal)) (r : Fin 4096) :
    val_main_v46 (F := Ideal) x0 x1 (ix1 r) = PixelContrast.rowLoss x0 x1 r := by
  unfold PixelContrast.rowLoss PixelContrast.rowLossOf PixelContrast.negOne PixelContrast.eps
  rw [val_main_v46_apply, val_main_v45_apply, val_main_cst_7_apply, val_main_v44_apply, val_main_v43_apply,
    val_main_v42_apply, val_main_cst_6_apply, possum_eq x0 x1 hfin, count_eq, Ideal.mulf_def, Ideal.hostDivf_def,
    Ideal.addf_def, Ideal.ofBits_def, Ideal.ofBits_def]

/-- The reference's result is the specification's mean loss. -/
theorem ref_loss (x0 : (⟨S32x128x512, .f32⟩ : BufTy).Contents (Elt Ideal)) (x1 : (⟨S32, .i32⟩ : BufTy).Contents (Elt Ideal))
    (hfin : ∀ idx, ∃ x : ℝ, x0 idx = (x : EReal)) :
    val_main_v48 (F := Ideal) x0 x1 = fun _ => PixelContrast.loss x0 x1 := by
  funext i
  rw [val_main_v48_apply, val_main_v47_apply, val_main_cst_8_apply, val_main_cst_9_apply, Ideal.hostDivf_def,
    Ideal.ofBits_def, Ideal.ofBits_def, Ideal.ofBits_zero_f32]
  unfold PixelContrast.loss PixelContrast.nRows
  have hs : ∑ j : S4096.Idx, val_main_v46 (F := Ideal) x0 x1 j = ∑ r : Fin 4096, PixelContrast.rowLoss x0 x1 r := by
    refine (Equiv.sum_comp rowIdx (fun j => val_main_v46 (F := Ideal) x0 x1 j)).symm.trans ?_
    exact Finset.sum_congr rfl fun r _ => ref_row x0 x1 hfin r
  rw [hs]

end Cert.ReferenceIdeal.RefLoss

end
-- ==== Proof.KerPay.lean ====
/-
  The kernel body's arithmetic at one row of a tile: the specification's row loss of the tile's blocks.
-/
import proofs.«423666_j37495064494136_3_alg».proof.Proof.Gen.KernelIdeal.Skeleton
import proofs.«423666_j37495064494136_3_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

open scoped BigOperators

namespace Cert.KernelIdeal.KerPay

open Cert.KernelIdeal Cert.KernelIdeal.Gen Idealize.ShloMosaic Idealize.ShloMosaic.ValueIdx

/-! ## The body's stages, named -/

/-- The Gram block: the tile's query rows against all key rows. -/
private def gram (q : FVec Ideal S256x512 .bf16) (k : FVec Ideal S4096x512 .bf16) : FVec Ideal S256x4096 .f32 :=
  matmul dot_S256x512_S4096x512_S256x4096_1_1_0_0_n_n none (shapeCast S256x512 q shapeCasts_S256x512_S256x512)
    (shapeCast S4096x512 k shapeCasts_S4096x512_S4096x512) (constant (F := Ideal) S256x4096 .f32 0x00000000#32)

/-- Each row's maximum, spread back over the row. -/
private def rowMaxB (g : FVec Ideal S256x4096 .f32) : FVec Ideal S256x4096 .f32 :=
  broadcastTo S256x4096
    (shapeCast S256x1 (multiReduction (F := Ideal) .maximumf [1] S256 g 0xFF800000#32 reduces_S256x4096_S256 (.inl rfl) rfl)
      shapeCasts_S256_S256x1) broadcasts_S256x1_S256x4096

/-- The shifted, scaled logits. -/
private def logits (g : FVec Ideal S256x4096 .f32) : FVec Ideal S256x4096 .f32 :=
  mulf (subf g (rowMaxB g)) (broadcast S256x4096 (Named.named (F := Ideal) κ "inv_temperature" 0x41649249#32))

/-- The bit "same class". -/
private def clsBit (cq : IVec S256x1 32) (ck : IVec S1x4096 32) : IVec S256x4096 1 :=
  cmpi .eq (broadcastTo S256x4096 (shapeCast S256x1 cq shapeCasts_S256x1_S256x1) broadcasts_S256x1_S256x4096)
    (broadcastTo S256x4096 (shapeCast S1x4096 ck shapeCasts_S1x4096_S1x4096) broadcasts_S1x4096_S256x4096)

/-- The bit "not the row itself". -/
private def offBit (i : grid0.Coords) : IVec S256x4096 1 :=
  cmpi .ne
    (broadcastTo S256x4096
      (addi (broadcast S256x1 (Scalar.muli (BitVec.ofNat 32 (i 0).val) 256#32)) (iota .tc S256x1 32 [0] iota_S256x1_d0_w32))
      broadcasts_S256x1_S256x4096)
    (broadcastTo S256x4096 (iota .tc S1x4096 32 [1] iota_S1x4096_d1_w32) broadcasts_S1x4096_S256x4096)

/-- A row's lane sum as a vector. -/
private def laneSum (v : FVec Ideal S256x4096 .f32) : FVec Ideal S256 .f32 :=
  multiReduction (F := Ideal) .add [1] S256 v 0x00000000#32 reduces_S256x4096_S256 (.inl rfl) rfl

/-- The mass of the other classes, spread back over the row. -/
private def negB (l : FVec Ideal S256x4096 .f32) (c : IVec S256x4096 1) : FVec Ideal S256x4096 .f32 :=
  broadcastTo S256x4096
    (shapeCast S256x1 (laneSum (select c (broadcast S256x4096 (Scalar.ofBits (F := Ideal) .f32 0x00000000#32)) (exp l)))
      shapeCasts_S256_S256x1) broadcasts_S256x1_S256x4096

/-- The log-probabilities. -/
private def lps (l : FVec Ideal S256x4096 .f32) (c : IVec S256x4096 1) : FVec Ideal S256x4096 .f32 :=
  subf l (log (addf (exp l) (negB l c)))

/-- The sum over the positives, as a column. -/
private def posCol (l : FVec Ideal S256x4096 .f32) (c o : IVec S256x4096 1) : FVec Ideal S256x1 .f32 :=
  shapeCast S256x1
    (laneSum (select (andi c o) (lps l c) (broadcast S256x4096 (Scalar.ofBits (F := Ideal) .f32 0x00000000#32))))
    shapeCasts_S256_S256x1

/-- The body's big term is these stages composed. -/
private theorem pay2_eq (i : grid0.Coords) (q : FVec Ideal S256x512 .bf16) (k : FVec Ideal S4096x512 .bf16)
    (cq : IVec S256x1 32) (ck : IVec S1x4096 32) :
    k0_pay2 (F := Ideal) i q k cq ck = posCol (logits (gram q k)) (clsBit cq ck) (offBit i) := rfl

/-! ## Layout forms: a vector as a column, a column spread over the lanes -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The Gram row -/

private theorem lhs_gram_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
private theorem lhs_gram_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
private theorem rhs_gram_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
private theorem rhs_gram_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- The Gram block at (p, j): the inner product of query row p and key row j. -/
private theorem gram_apply (q : FVec Ideal S256x512 .bf16) (k : FVec Ideal S4096x512 .bf16) (p : Fin 256) (j : Fin 4096) :
    gram q k (ix2 p j) = ∑ kk : Fin 512, q (ix2 p kk) * k (ix2 j kk) := by
  unfold gram
  rw [shapeCast_self, shapeCast_self]
  simp only [matmul]
  rw [Ideal.matmul_constant_zero_apply, ← Equiv.sum_comp (ValueIdx.contrEquiv1 dot_S256x512_S4096x512_S256x4096_1_1_0_0_n_n 512 rfl rfl).symm]
  refine Finset.sum_congr rfl fun kk _ => ?_
  have hk := ValueIdx.contrEquiv1_symm_val dot_S256x512_S4096x512_S256x4096_1_1_0_0_n_n 512 rfl rfl kk
  have el : dot_S256x512_S4096x512_S256x4096_1_1_0_0_n_n.lhsIdx (ix2 p j) ((ValueIdx.contrEquiv1 dot_S256x512_S4096x512_S256x4096_1_1_0_0_n_n 512 rfl rfl).symm kk) = ix2 p kk := funext fun a => Fin.ext (by
    match a with
    | ⟨0, _⟩ => exact lhs_gram_0 _ _
    | ⟨1, _⟩ => exact (lhs_gram_1 _ _).trans hk)
  have er : dot_S256x512_S4096x512_S256x4096_1_1_0_0_n_n.rhsIdx (ix2 p j) ((ValueIdx.contrEquiv1 dot_S256x512_S4096x512_S256x4096_1_1_0_0_n_n 512 rfl rfl).symm kk) = ix2 j kk := funext fun a => Fin.ext (by
    match a with
    | ⟨0, _⟩ => exact rhs_gram_0 _ _
    | ⟨1, _⟩ => exact (rhs_gram_1 _ _).trans hk)
  rw [el, er]

/-! ## The lane sum and the lane maximum -/

/-- A lane sum at row p is the sum over the row. -/
private theorem laneSum_apply (v : FVec Ideal S256x4096 .f32) (p : Fin 256) :
    laneSum v (ix1 p) = ∑ j : Fin 4096, v (ix2 p j) := by
  unfold laneSum
  refine (Ideal.multiReduction_add_single v 0x00000000#32 reduces_S256x4096_S256 (.inl rfl) rfl (ix1 p)).trans ?_
  show ∑ j : Fin 4096, v (reduces_S256x4096_S256.lift (ix1 p) j) = _
  refine Finset.sum_congr rfl fun j _ => ?_
  exact congrArg v (funext fun a => Fin.ext (by match a with | ⟨0, _⟩ => rfl | ⟨1, _⟩ => rfl))

/-- The row maximum, spread over the row, at (p, j): the largest entry of row p. -/
private theorem rowMaxB_apply (g : FVec Ideal S256x4096 .f32) (p : Fin 256) (j : Fin 4096) :
    rowMaxB g (ix2 p j) = (Finset.univ : Finset (Fin 4096)).fold max ⊥ (fun j' => g (ix2 p j')) := by
  unfold rowMaxB
  rw [broadcastTo_a1_ab_apply, shapeCast_a_a1_apply]
  refine (Ideal.multiReduction_maximumf_single g 0xFF800000#32 reduces_S256x4096_S256 (.inl rfl) rfl (ix1 p)).trans ?_
  show (Finset.univ : Finset (Fin 4096)).fold max (Ideal.ofBits .f32 0xFF800000#32) (g ∘ reduces_S256x4096_S256.lift (ix1 p)) = _
  rw [PixelContrast.ofBits_negInf]
  exact congrArg (fun f => (Finset.univ : Finset (Fin 4096)).fold max ⊥ f)
    (funext fun j' => congrArg g (funext fun a => Fin.ext (by match a with | ⟨0, _⟩ => rfl | ⟨1, _⟩ => rfl)))

/-! ## The mask bits -/

/-- A select on "equal words" is the `if`. -/
private theorem select_cmpi_eq {α : Type} {w : ℕ} (a b : BitVec w) (x y : α) :
    Scalar.select (IntOp.cmpi .eq a b) x y = if a = b then x else y := by
  by_cases h : a = b
  · rw [if_pos h, StableHlo.Predicate.cmpi_eq_iff.mpr h]; exact select_one _ _
  · rw [if_neg h, eq_zero_of_ne_one (fun h1 => h (StableHlo.Predicate.cmpi_eq_iff.mp h1))]; exact select_zero _ _

/-- "Different words" as a bit. -/
private theorem cmpi_ne_iff {w : ℕ} {a b : BitVec w} : IntOp.cmpi .ne a b = 1#1 ↔ a ≠ b := by
  simp only [IntOp.cmpi, StableHlo.Predicate.ofBool_eq_one_iff, bne_iff_ne]

/-- The conjunction of two bits. -/
private theorem andi_eq_one_iff (a b : BitVec 1) : IntOp.andi a b = 1#1 ↔ a = 1#1 ∧ b = 1#1 := by
  rcases BitVec.eq_zero_or_eq_one a with ha | ha <;> rcases BitVec.eq_zero_or_eq_one b with hb | hb <;> subst ha <;> subst hb <;> decide

/-- A select on a bit that says P is the `if` on P. -/
private theorem select_of_iff {α : Type} (c : BitVec 1) (P : Prop) [Decidable P] (h : c = 1#1 ↔ P) (x y : α) :
    Scalar.select c x y = if P then x else y := by
  by_cases hp : P
  · rw [if_pos hp, h.mpr hp]; exact select_one _ _
  · rw [if_neg hp, eq_zero_of_ne_one (fun h1 => hp (h.mp h1))]; exact select_zero _ _

/-- The class bit at (p, j) compares the row's class with column j's. -/
private theorem clsBit_apply (cq : IVec S256x1 32) (ck : IVec S1x4096 32) (p : Fin 256) (j : Fin 4096) :
    clsBit cq ck (ix2 p j) = IntOp.cmpi .eq (cq (ix2 p (0 : Fin 1))) (ck (ix2 (0 : Fin 1) j)) := by
  unfold clsBit
  rw [shapeCast_self, shapeCast_self]
  show IntOp.cmpi .eq (broadcastTo S256x4096 cq broadcasts_S256x1_S256x4096 (ix2 p j))
      (broadcastTo S256x4096 ck broadcasts_S1x4096_S256x4096 (ix2 p j)) = _
  rw [broadcastTo_a1_ab_apply, broadcastTo_1b_ab_apply]

/-- The row-number bit at (p, j): the tile's row 256 i + p is not column j. -/
private theorem offBit_iff (i : grid0.Coords) (p : Fin 256) (j : Fin 4096) :
    offBit i (ix2 p j) = 1#1 ↔ 256 * (i 0).val + p.val ≠ j.val := by
  unfold offBit
  show IntOp.cmpi .ne
      (broadcastTo S256x4096
        (addi (broadcast S256x1 (Scalar.muli (BitVec.ofNat 32 (i 0).val) 256#32)) (iota .tc S256x1 32 [0] iota_S256x1_d0_w32))
        broadcasts_S256x1_S256x4096 (ix2 p j))
      (broadcastTo S256x4096 (iota .tc S1x4096 32 [1] iota_S1x4096_d1_w32) broadcasts_S1x4096_S256x4096 (ix2 p j)) = 1#1 ↔ _
  rw [broadcastTo_a1_ab_apply, broadcastTo_1b_ab_apply, cmpi_ne_iff]
  show IntOp.addi (Scalar.muli (BitVec.ofNat 32 (i 0).val) 256#32) (iota .tc S256x1 32 [0] iota_S256x1_d0_w32 (ix2 p (0 : Fin 1)))
      ≠ iota .tc S1x4096 32 [1] iota_S1x4096_d1_w32 (ix2 (0 : Fin 1) j) ↔ _
  rw [iota_single_apply, iota_single_apply]
  show BitVec.ofNat 32 (i 0).val * 256#32 + BitVec.ofNat 32 p.val ≠ BitVec.ofNat 32 j.val ↔ _
  have hi : (i 0).val < 16 := (i 0).isLt
  have hp := p.isLt
  have hj := j.isLt
  rw [Ne, ← BitVec.toNat_inj]
  simp only [BitVec.toNat_add, BitVec.toNat_mul, BitVec.toNat_ofNat]
  omega

/-! ## The stages at an index -/

/-- The kernel's constant 1/T is the specification's. -/
private theorem invT_eq : Named.named (F := Ideal) κ "inv_temperature" (φ := .f32) 0x41649249#32 = PixelContrast.invT :=
  IdealRules.named_const.ideal_named_scalar _ _ _ _ rfl

/-- The mass of the other classes at (p, j): a sum over row p. -/
private theorem negB_apply (l : FVec Ideal S256x4096 .f32) (c : IVec S256x4096 1) (p : Fin 256) (j : Fin 4096) :
    negB l c (ix2 p j) = ∑ j' : Fin 4096, Scalar.select (c (ix2 p j')) 0 (Ideal.exp (l (ix2 p j'))) := by
  unfold negB
  rw [broadcastTo_a1_ab_apply, shapeCast_a_a1_apply, laneSum_apply]
  refine Finset.sum_congr rfl fun j' _ => ?_
  show Scalar.select (c (ix2 p j')) (Ideal.ofBits .f32 0x00000000#32) (Ideal.exp (l (ix2 p j'))) = _
  rw [Ideal.ofBits_zero_f32]

/-- The log-probability at (p, j). -/
private theorem lps_apply (l : FVec Ideal S256x4096 .f32) (c : IVec S256x4096 1) (p : Fin 256) (j : Fin 4096) :
    lps l c (ix2 p j) = l (ix2 p j) - Ideal.log (Ideal.exp (l (ix2 p j)) + negB l c (ix2 p j)) := rfl

/-- The column of positive sums at row p: a sum over row p. -/
private theorem posCol_apply (l : FVec Ideal S256x4096 .f32) (c o : IVec S256x4096 1) (p : Fin 256) :
    posCol l c o (ix2 p (0 : Fin 1))
      = ∑ j : Fin 4096, Scalar.select (IntOp.andi (c (ix2 p j)) (o (ix2 p j))) (lps l c (ix2 p j)) 0 := by
  unfold posCol
  rw [shapeCast_a_a1_apply, laneSum_apply]
  refine Finset.sum_congr rfl fun j _ => ?_
  show Scalar.select (IntOp.andi (c (ix2 p j)) (o (ix2 p j))) (lps l c (ix2 p j)) (Ideal.ofBits .f32 0x00000000#32) = _
  rw [Ideal.ofBits_zero_f32]

/-- The last two operations at row p: minus the quotient by the count plus eps. -/
private theorem pay1_apply (v41 dblk : FVec Ideal S256x1 .f32) (p : Fin 256) :
    k0_pay1 (F := Ideal) v41 dblk (ix2 p (0 : Fin 1))
      = PixelContrast.negOne * Ideal.div (v41 (ix2 p (0 : Fin 1))) (dblk (ix2 p (0 : Fin 1)) + PixelContrast.eps) := by
  unfold k0_pay1
  rw [shapeCast_self]
  rfl

/-! ## The stages are the specification's row quantities -/

section Row

variable (i : grid0.Coords) (q : FVec Ideal S256x512 .bf16) (k : FVec Ideal S4096x512 .bf16)
  (cq : IVec S256x1 32) (ck : IVec S1x4096 32) (p : Fin 256)

/-- The logit of row p against column j. -/
private theorem logits_apply (j : Fin 4096) :
    logits (gram q k) (ix2 p j)
      = PixelContrast.logit (fun kk : Fin 512 => q (ix2 p kk)) (fun (j : Fin 4096) (kk : Fin 512) => k (ix2 j kk)) j := by
  unfold logits
  show (gram q k (ix2 p j) - rowMaxB (gram q k) (ix2 p j)) * Named.named (F := Ideal) κ "inv_temperature" (φ := .f32) 0x41649249#32 = _
  rw [rowMaxB_apply, invT_eq]
  simp only [gram_apply]
  rfl

/-- The mass of the other classes of row p. -/
private theorem negSum_eq (j : Fin 4096) :
    negB (logits (gram q k)) (clsBit cq ck) (ix2 p j)
      = PixelContrast.negSum (fun kk : Fin 512 => q (ix2 p kk)) (fun (j : Fin 4096) (kk : Fin 512) => k (ix2 j kk))
          (cq (ix2 p (0 : Fin 1))) (fun j : Fin 4096 => ck (ix2 (0 : Fin 1) j)) := by
  rw [negB_apply]
  unfold PixelContrast.negSum
  refine Finset.sum_congr rfl fun j' _ => ?_
  rw [clsBit_apply, select_cmpi_eq, logits_apply]

/-- The log-probability of column j for row p. -/
private theorem logProb_eq (j : Fin 4096) :
    lps (logits (gram q k)) (clsBit cq ck) (ix2 p j)
      = PixelContrast.logProb (fun kk : Fin 512 => q (ix2 p kk)) (fun (j : Fin 4096) (kk : Fin 512) => k (ix2 j kk))
          (cq (ix2 p (0 : Fin 1))) (fun j : Fin 4096 => ck (ix2 (0 : Fin 1) j)) j := by
  rw [lps_apply, negSum_eq, logits_apply]
  rfl

/-- The sum over the positives of row p, the row's number being 256 i + p. -/
private theorem posSum_eq :
    posCol (logits (gram q k)) (clsBit cq ck) (offBit i) (ix2 p (0 : Fin 1))
      = PixelContrast.posSum (fun kk : Fin 512 => q (ix2 p kk)) (fun (j : Fin 4096) (kk : Fin 512) => k (ix2 j kk))
          (cq (ix2 p (0 : Fin 1))) (fun j : Fin 4096 => ck (ix2 (0 : Fin 1) j)) (256 * (i 0).val + p.val) := by
  rw [posCol_apply]
  unfold PixelContrast.posSum
  refine Finset.sum_congr rfl fun j _ => ?_
  rw [logProb_eq]
  exact select_of_iff _ _ ((andi_eq_one_iff _ _).trans
    (and_congr (by rw [clsBit_apply]; exact StableHlo.Predicate.cmpi_eq_iff) (offBit_iff i p j))) _ _

end Row

/-- Row p of the tile at grid point i: the stored value is the row loss of the tile's query row p against all key rows,
    the row's number being 256 i + p. -/
theorem pay_apply (i : grid0.Coords) (q : FVec Ideal S256x512 .bf16) (k : FVec Ideal S4096x512 .bf16)
    (cq : IVec S256x1 32) (ck : IVec S1x4096 32) (dblk : FVec Ideal S256x1 .f32) (p : Fin 256) :
    k0_pay1 (F := Ideal) (k0_pay2 (F := Ideal) i q k cq ck) dblk (ix2 p (0 : Fin 1))
      = PixelContrast.rowLossOf (fun kk : Fin 512 => q (ix2 p kk)) (fun (j : Fin 4096) (kk : Fin 512) => k (ix2 j kk))
          (cq (ix2 p (0 : Fin 1))) (fun j : Fin 4096 => ck (ix2 (0 : Fin 1) j)) (256 * (i 0).val + p.val)
          (dblk (ix2 p (0 : Fin 1))) := by
  rw [pay1_apply, pay2_eq, posSum_eq]
  rfl

end Cert.KernelIdeal.KerPay

end
-- ==== Proof.KerHost.lean ====
/-
  What the host operations before the kernel leave in the four arrays it reads: the bf16 feature matrix (row i is view
  i / 32 of anchor i % 32), the classes as a column and as a row, and the analytic positive count as a column.
-/
import proofs.«423666_j37495064494136_3_alg».proof.Proof.Gen.KernelIdeal.Frame
import proofs.«423666_j37495064494136_3_alg».proof.Proof.Consts
import Idealize.ShloMosaic.Lib.StableHlo.Predicate
import Idealize.ShloMosaic.Lib.StableHlo.Run
import Idealize.ShloMosaic.Lib.Pipeline.Value

set_option maxRecDepth 16384

noncomputable section

open scoped BigOperators

namespace Cert.KernelIdeal.KerHost

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The tables the host operations build -/

/-- The position table: the numbers 0 … 31 repeated 128 times. -/
private def posTab : IVec S4096 32 :=
  shapeCast S4096 (broadcastInDim S128x32 ![0, 1] bcast_S1x32_S128x32_0_1
    (shapeCast S1x32 (iotaInDim S32 32 0) shapeCasts_S32_S1x32)) shapeCasts_S128x32_S4096

/-- The start indices of the two gathers by position: the position, wrapped if negative, as a column. -/
private def startTab : IVec S4096x1 32 :=
  broadcastInDim S4096x1 ![0] bcast_S4096_S4096x1_0
    (select (cmpi .slt posTab (broadcastInDim S4096 ![] bcast_S_S4096 (constantI S_ 32 0#32)))
      (addi posTab (broadcastInDim S4096 ![] bcast_S_S4096 (constantI S_ 32 32#32))) posTab)

/-- The classes of the 4096 rows. -/
private def rowCls (y : S32.Idx → BitVec 32) : IVec S4096 32 :=
  Host.gather gather_S32_S4096x1_S4096_n_0_n_n_0_1_1 y startTab

/-- The histogram of the classes: entry c is the number of anchors of class c. -/
private def hist (y : S32.Idx → BitVec 32) : FVec Ideal S19 .f32 :=
  Host.reduceAdd
    (uitofp .f32 (cmpi .eq
      (broadcastInDim S32x19 ![0, 1] bcast_S32x1_S32x19_0_1 (broadcastInDim S32x1 ![0] bcast_S32_S32x1_0 y))
      (broadcastInDim S32x19 ![0, 1] bcast_S1x19_S32x19_0_1
        (broadcastInDim S1x19 ![1] bcast_S19_S1x19_1 (iotaInDim S19 32 0)))))
    (constant (F := Ideal) S_ .f32 0x00000000#32) reducesTo_S32x19_S19_d0 h_S_

/-- The start indices of the histogram's gather: the class, wrapped if negative, as a column. -/
private def clsStart (y : S32.Idx → BitVec 32) : IVec S32x1 32 :=
  broadcastInDim S32x1 ![0] bcast_S32_S32x1_0
    (select (cmpi .slt y (broadcastInDim S32 ![] bcast_S_S32 (constantI S_ 32 0#32)))
      (addi y (broadcastInDim S32 ![] bcast_S_S32 (constantI S_ 32 19#32))) y)

/-- The positive count of each anchor: 128 times the histogram entry of its class, less one. -/
private def anchorCount (y : S32.Idx → BitVec 32) : FVec Ideal S32 .f32 :=
  subf
    (mulf (broadcastInDim S32 ![] bcast_S_S32 (constant (F := Ideal) S_ .f32 0x43000000#32))
      (Host.gather gather_S19_S32x1_S32_n_0_n_n_0_1_1 (hist y) (clsStart y)))
    (broadcastInDim S32 ![] bcast_S_S32 (constant (F := Ideal) S_ .f32 0x3F800000#32))

/-! ## The four arrays as terms of the inputs -/

private theorem e_v6 (c : Dev nD) : (V m c main_v6 : S4096x512.Idx → EReal) =
    (truncf .bf16 (shapeCast S4096x512 (transpose S128x32x512 [1, 0, 2]
      (m ((c : Thread nD τ).loc main_arg0) : S32x128x512.Idx → EReal) transposes_S32x128x512_S128x32x512_1_0_2)
      shapeCasts_S128x32x512_S4096x512 : FVec Ideal S4096x512 .f32) bitsLt_bf16_f32 : FVec Ideal S4096x512 .bf16) := by
  show StableHlo.after hostOps0 (fun b => m (c, b)) (Proc.devRef .tc main_v6) = _
  after_results
  rfl

private theorem e_v14 (c : Dev nD) : (V m c main_v14 : S4096x1.Idx → BitVec 32) =
    shapeCast S4096x1 (rowCls (m ((c : Thread nD τ).loc main_arg1))) shapeCasts_S4096_S4096x1 := by
  show StableHlo.after hostOps0 (fun b => m (c, b)) (Proc.devRef .tc main_v14) = _
  after_results
  rfl

private theorem e_v15 (c : Dev nD) : (V m c main_v15 : S1x4096.Idx → BitVec 32) =
    shapeCast S1x4096 (rowCls (m ((c : Thread nD τ).loc main_arg1))) shapeCasts_S4096_S1x4096 := by
  show StableHlo.after hostOps0 (fun b => m (c, b)) (Proc.devRef .tc main_v15) = _
  after_results
  rfl

private theorem e_v42 (c : Dev nD) : (V m c main_v42 : S4096x1.Idx → EReal) =
    shapeCast S4096x1 (Host.gather gather_S32_S4096x1_S4096_n_0_n_n_0_1_1
      (anchorCount (m ((c : Thread nD τ).loc main_arg1))) startTab : FVec Ideal S4096 .f32) shapeCasts_S4096_S4096x1 := by
  show StableHlo.after hostOps0 (fun b => m (c, b)) (Proc.devRef .tc main_v42) = _
  after_results_simp
  rfl

/-! ## Words and indices -/

/-- A word below 2^31 is not negative, so the wrap of a negative index leaves it as it is. -/
private theorem wrap_nonneg (w k : BitVec 32) (hw : w.toNat < 2 ^ 31) :
    Scalar.select (IntOp.cmpi .slt w 0#32) (IntOp.addi w k) w = w := by
  have h : ¬ IntOp.cmpi .slt w 0#32 = 1#1 := by
    rw [StableHlo.Predicate.slt_iff_toNat hw (by decide)]
    simp
  exact if_neg h

private theorem ofFin_eq_ix1 {n : Nat} (k : Fin n) : Shape.Idx.ofFin k = ix1 k := by
  funext a
  match a with
  | ⟨0, _⟩ => exact Fin.ext rfl

private theorem ixP_eq_ix2 {n : Nat} (p : Fin n) : StableHlo.Predicate.ixP p = ix2 p (0 : Fin 1) := by
  funext a
  match a with
  | ⟨0, _⟩ => rfl
  | ⟨1, _⟩ => rfl

/-! ## The position table and the gathers by position -/

/-- Entry j of the position table is j % 32. -/
private theorem posTab_apply (j : Fin 4096) : posTab (ix1 j) = BitVec.ofNat 32 (j.val % 32) := by
  have hj := j.isLt
  unfold posTab
  refine (shapeCast_apply _ _ (ix1 j)
    (ix2 (⟨j.val / 32, by omega⟩ : Fin 128) (⟨j.val % 32, Nat.mod_lt _ (by decide)⟩ : Fin 32)) ?_).trans ?_
  · rw [Shape.rowMajor_val_two, Shape.rowMajor_val_one]
    show j.val / 32 * 32 + j.val % 32 = j.val
    omega
  refine (broadcastInDim_apply _ _ _ _
    (ix2 (0 : Fin 1) (⟨j.val % 32, Nat.mod_lt _ (by decide)⟩ : Fin 32)) ?_).trans ?_
  · intro a
    match a with
    | ⟨0, _⟩ => rfl
    | ⟨1, _⟩ => rfl
  refine (shapeCast_apply _ _ _ (ix1 (⟨j.val % 32, Nat.mod_lt _ (by decide)⟩ : Fin 32)) ?_).trans rfl
  rw [Shape.rowMajor_val_two, Shape.rowMajor_val_one]
  show j.val % 32 = 0 * 32 + j.val % 32
  omega

/-- The start index of position j is j % 32: it is not negative. -/
private theorem startTab_apply (j : Fin 4096) : startTab (ix2 j (0 : Fin 1)) = BitVec.ofNat 32 (j.val % 32) := by
  unfold startTab
  refine (broadcastInDim_apply _ _ _ _ (ix1 j) ?_).trans ?_
  · intro a
    match a with
    | ⟨0, _⟩ => rfl
  show Scalar.select (IntOp.cmpi .slt (posTab (ix1 j)) 0#32) (IntOp.addi (posTab (ix1 j)) 32#32) (posTab (ix1 j)) = _
  rw [posTab_apply]
  exact wrap_nonneg _ _ (by rw [BitVec.toNat_ofNat]; omega)

/-- A gather of a 32-entry table by position reads, at j, the table at j % 32. -/
private theorem gather_rows {α : Type} (x : S32.Idx → α) (j : Fin 4096) :
    Host.gather gather_S32_S4096x1_S4096_n_0_n_n_0_1_1 x startTab (ix1 j)
      = x (ix1 (⟨j.val % 32, Nat.mod_lt _ (by decide)⟩ : Fin 32)) := by
  have e := StableHlo.Predicate.gather_take gather_S32_S4096x1_S4096_n_0_n_n_0_1_1 rfl rfl rfl rfl x startTab j (by decide)
  simp only [ofFin_eq_ix1] at e
  refine e.trans (congrArg x (congrArg ix1 (Fin.ext ?_)))
  show min (startTab (StableHlo.Predicate.ixP j)).toInt.toNat (32 - 1) = j.val % 32
  rw [ixP_eq_ix2, startTab_apply, StableHlo.Predicate.toInt_ofNat_small _ (by omega)]
  omega

/-! ## The histogram -/

/-- The comparison of an anchor's class with a class number, as a float: 1 when they agree, else 0. -/
private theorem mask_apply (y : S32.Idx → BitVec 32) (i : S32x19.Idx) (a : Fin 32) (c : Fin 19)
    (h0 : (i 0).val = a.val) (h1 : (i 1).val = c.val) :
    (uitofp .f32 (cmpi .eq
      (broadcastInDim S32x19 ![0, 1] bcast_S32x1_S32x19_0_1 (broadcastInDim S32x1 ![0] bcast_S32_S32x1_0 y))
      (broadcastInDim S32x19 ![0, 1] bcast_S1x19_S32x19_0_1
        (broadcastInDim S1x19 ![1] bcast_S19_S1x19_1 (iotaInDim S19 32 0)))) : FVec Ideal S32x19 .f32) i
      = if y (ix1 a) = BitVec.ofNat 32 c.val then (1 : EReal) else 0 := by
  have eA : broadcastInDim S32x19 ![0, 1] bcast_S32x1_S32x19_0_1 (broadcastInDim S32x1 ![0] bcast_S32_S32x1_0 y) i
      = y (ix1 a) := by
    refine (broadcastInDim_apply _ _ _ i (ix2 a (0 : Fin 1)) ?_).trans ?_
    · intro b
      match b with
      | ⟨0, _⟩ => exact h0.symm
      | ⟨1, _⟩ => rfl
    refine (broadcastInDim_apply _ _ _ _ (ix1 a) ?_).trans rfl
    intro b
    match b with
    | ⟨0, _⟩ => rfl
  have eB : broadcastInDim S32x19 ![0, 1] bcast_S1x19_S32x19_0_1
      (broadcastInDim S1x19 ![1] bcast_S19_S1x19_1 (iotaInDim S19 32 0)) i = BitVec.ofNat 32 c.val := by
    refine (broadcastInDim_apply _ _ _ i (ix2 (0 : Fin 1) c) ?_).trans ?_
    · intro b
      match b with
      | ⟨0, _⟩ => rfl
      | ⟨1, _⟩ => exact h1.symm
    refine (broadcastInDim_apply _ _ _ _ (ix1 c) ?_).trans rfl
    intro b
    match b with
    | ⟨0, _⟩ => rfl
  show (((IntOp.cmpi .eq
      (broadcastInDim S32x19 ![0, 1] bcast_S32x1_S32x19_0_1 (broadcastInDim S32x1 ![0] bcast_S32_S32x1_0 y) i)
      (broadcastInDim S32x19 ![0, 1] bcast_S1x19_S32x19_0_1
        (broadcastInDim S1x19 ![1] bcast_S19_S1x19_1 (iotaInDim S19 32 0)) i)).toNat : ℝ) : EReal) = _
  rw [eA, eB]
  by_cases h : y (ix1 a) = BitVec.ofNat 32 c.val
  · rw [if_pos h, StableHlo.Predicate.cmpi_eq_iff.2 h]
    simp
  · rw [if_neg h, eq_zero_of_ne_one (fun hc => h (StableHlo.Predicate.cmpi_eq_iff.1 hc))]
    simp

/-- Entry c of the histogram is the number of anchors of class c. -/
private theorem hist_apply (y : S32.Idx → BitVec 32) (c : Fin 19) :
    hist y (ix1 c) = ∑ a : Fin 32, if y (ix1 a) = BitVec.ofNat 32 c.val then (1 : EReal) else 0 := by
  unfold hist
  show Ideal.hostReduceAdd reducesTo_S32x19_S19_d0 _ (Ideal.ofBits .f32 0x00000000#32) (ix1 c) = _
  rw [Ideal.hostReduceAdd_single reducesTo_S32x19_S19_d0 (by decide : S32x19.Reduces [0] S19), Ideal.ofBits_zero_f32,
    zero_add]
  refine Finset.sum_congr rfl fun a _ => ?_
  exact mask_apply y _ a c rfl rfl

/-- The histogram gathered at an anchor's class, when the class is in range: the number of anchors of that class. -/
private theorem gather_hist (y : S32.Idx → BitVec 32) (hy : ∀ a : Fin 32, (y (ix1 a)).toNat < 19) (a : Fin 32) :
    Host.gather gather_S19_S32x1_S32_n_0_n_n_0_1_1 (hist y) (clsStart y) (ix1 a)
      = ∑ a' : Fin 32, if y (ix1 a') = y (ix1 a) then (1 : EReal) else 0 := by
  have ha := hy a
  have e := StableHlo.Predicate.gather_take gather_S19_S32x1_S32_n_0_n_n_0_1_1 rfl rfl rfl rfl (hist y) (clsStart y) a (by decide)
  simp only [ofFin_eq_ix1] at e
  have hs : clsStart y (StableHlo.Predicate.ixP a) = y (ix1 a) := by
    rw [ixP_eq_ix2]
    unfold clsStart
    refine (broadcastInDim_apply _ _ _ _ (ix1 a) ?_).trans ?_
    · intro b
      match b with
      | ⟨0, _⟩ => rfl
    exact wrap_nonneg _ _ (by omega)
  have hidx : hist y (ix1 (⟨min (clsStart y (StableHlo.Predicate.ixP a)).toInt.toNat (19 - 1), by omega⟩ : Fin 19))
      = hist y (ix1 (⟨(y (ix1 a)).toNat, ha⟩ : Fin 19)) := by
    refine congrArg (hist y) (congrArg ix1 (Fin.ext ?_))
    show min (clsStart y (StableHlo.Predicate.ixP a)).toInt.toNat (19 - 1) = (y (ix1 a)).toNat
    rw [hs, StableHlo.Predicate.toInt_eq_toNat_of_lt (by omega)]
    omega
  refine e.trans (hidx.trans ?_)
  rw [hist_apply]
  refine Finset.sum_congr rfl fun a' _ => ?_
  show (if y (ix1 a') = BitVec.ofNat 32 (y (ix1 a)).toNat then (1 : EReal) else 0) = _
  rw [BitVec.ofNat_toNat, BitVec.setWidth_eq]

/-- The positive count of an anchor whose class is in range. -/
private theorem anchorCount_apply (y : S32.Idx → BitVec 32) (hy : ∀ a : Fin 32, (y (ix1 a)).toNat < 19) (a : Fin 32) :
    anchorCount y (ix1 a)
      = (128 : EReal) * (∑ a' : Fin 32, if y (ix1 a') = y (ix1 a) then (1 : EReal) else 0) - 1 := by
  unfold anchorCount
  show Ideal.ofBits .f32 0x43000000#32 * Host.gather gather_S19_S32x1_S32_n_0_n_n_0_1_1 (hist y) (clsStart y) (ix1 a)
    - Ideal.ofBits .f32 0x3F800000#32 = _
  rw [PixelContrast.ofBits_128, PixelContrast.ofBits_one, gather_hist y hy a]

/-! ## The four arrays read at an index -/

/-- The transposed, flattened feature matrix read at a row and a column. -/
private theorem feat_read (X : S32x128x512.Idx → EReal) (i : Fin 4096) (k : Fin 512) :
    (truncf .bf16 (shapeCast S4096x512 (transpose S128x32x512 [1, 0, 2] X transposes_S32x128x512_S128x32x512_1_0_2)
      shapeCasts_S128x32x512_S4096x512 : FVec Ideal S4096x512 .f32) bitsLt_bf16_f32 : FVec Ideal S4096x512 .bf16) (ix2 i k)
      = PixelContrast.featOf X i k := by
  have hi := i.isLt
  rw [truncf_apply]
  refine (shapeCast_apply _ _ (ix2 i k)
    (ix3 (⟨i.val / 32, by omega⟩ : Fin 128) (⟨i.val % 32, Nat.mod_lt _ (by decide)⟩ : Fin 32) k) ?_).trans ?_
  · rw [Shape.rowMajor_val_three, Shape.rowMajor_val_two]
    show (i.val / 32 * 32 + i.val % 32) * 512 + k.val = i.val * 512 + k.val
    omega
  · refine (transpose_apply _ _ _ _
      (ix3 (⟨i.val % 32, Nat.mod_lt _ (by decide)⟩ : Fin 32) (⟨i.val / 32, by omega⟩ : Fin 128) k) ?_).trans rfl
    intro b
    fin_cases b <;> rfl

/-- The feature matrix the kernel stages (its change of format is the identity on extended reals). -/
theorem V_feat (c : Dev nD) (i : Fin 4096) (k : Fin 512) :
    (V m c main_v6 : S4096x512.Idx → EReal) (ix2 i k)
      = PixelContrast.featOf (m ((c : Thread nD τ).loc main_arg0)) i k := by
  rw [e_v6]
  exact feat_read _ i k

/-- The classes as a row: column j carries the class of anchor j % 32. -/
theorem V_clsCol (c : Dev nD) (j : Fin 4096) :
    (V m c main_v15 : S1x4096.Idx → BitVec 32) (ix2 (0 : Fin 1) j)
      = PixelContrast.clsOf (m ((c : Thread nD τ).loc main_arg1)) j := by
  rw [e_v15]
  refine (shapeCast_apply _ _ (ix2 (0 : Fin 1) j) (ix1 j) ?_).trans ?_
  · rw [Shape.rowMajor_val_two, Shape.rowMajor_val_one]
    show j.val = 0 * 4096 + j.val
    omega
  exact gather_rows _ j

/-- The classes as a column. -/
theorem V_clsRow (c : Dev nD) (i : Fin 4096) :
    (V m c main_v14 : S4096x1.Idx → BitVec 32) (ix2 i (0 : Fin 1))
      = PixelContrast.clsOf (m ((c : Thread nD τ).loc main_arg1)) i := by
  rw [e_v14]
  refine (shapeCast_apply _ _ (ix2 i (0 : Fin 1)) (ix1 i) ?_).trans ?_
  · rw [Shape.rowMajor_val_two, Shape.rowMajor_val_one]
    show i.val = i.val * 1 + 0
    omega
  exact gather_rows _ i

/-- The analytic positive count, for classes in their range 0 … 18: the histogram entry of the row's class is the
    number of anchors of that class. -/
theorem V_count (c : Dev nD)
    (hy : ∀ a : Fin 32, ((m ((c : Thread nD τ).loc main_arg1) : S32.Idx → BitVec 32) (ix1 a)).toNat < 19)
    (i : Fin 4096) :
    (V m c main_v42 : S4096x1.Idx → EReal) (ix2 i (0 : Fin 1))
      = PixelContrast.posCount (m ((c : Thread nD τ).loc main_arg1)) i := by
  rw [e_v42]
  refine (shapeCast_apply _ _ (ix2 i (0 : Fin 1)) (ix1 i) ?_).trans ?_
  · rw [Shape.rowMajor_val_two, Shape.rowMajor_val_one]
    show i.val = i.val * 1 + 0
    omega
  rw [gather_rows, anchorCount_apply _ hy]
  rfl

end Cert.KernelIdeal.KerHost

end
-- ==== Proof.KerBlock.lean ====
/-
  From the kernel's tiles to its output array. At grid point t the body stores, for each of the tile's 256 rows p, the
  row loss of row 256 t + p: its query rows are rows 256 t … 256 t + 255 of the feature matrix, its keys the whole
  matrix, its classes and positive counts the matching entries of the host's columns. The sixteen tiles cover the
  [4096, 1] output, which therefore ends holding every row's loss.
-/
import proofs.«423666_j37495064494136_3_alg».proof.Proof.Gen.KernelIdeal.Frame
import proofs.«423666_j37495064494136_3_alg».proof.Proof.KerPay
import proofs.«423666_j37495064494136_3_alg».proof.Proof.KerHost
import Idealize.ShloMosaic.Lib.Pipeline.Value
import Idealize.ShloMosaic.Lib.Tactic

set_option maxRecDepth 16384

noncomputable section

namespace Cert.KernelIdeal.KerBlock

open Cert.KernelIdeal Cert.KernelIdeal.Gen Idealize.ShloMosaic Idealize.ShloMosaic.TcCoe Idealize.ShloMosaic.Tactic
open Idealize.ShloMosaic.ValueIdx Idealize.SL.Sem
open Idealize.ShloMosaic.Pipeline (Dat)

theorem hz2 : (![0, 0] : Fin 2 → Nat) = fun _ => 0 := by
  funext a; match a with | ⟨0, _⟩ => rfl | ⟨1, _⟩ => rfl

/-! ## What one point stores, as the body's arithmetic of its loaded blocks -/

section Piece

variable {F : FTy → Type} [FloatOps F] [Named F]

/-- The one store of the body covers the output's staging block: the block ends holding the body's arithmetic of the
    query rows (the key block read through the tile's row rectangle), the key block, the two class blocks and the
    count block. -/
theorem out_eq_pay (c : Dev nD) (i : grid0.Coords) (arg1 : Memref sig .tc .vmem S4096x512 .bf16) (harg1 : arg1.IsWhole)
    (arg2 : Memref sig .tc .vmem S1x4096 .i32) (harg2 : arg2.IsWhole) (arg3 : Memref sig .tc .vmem S256x1 .i32) (harg3 : arg3.IsWhole)
    (arg4 : Memref sig .tc .vmem S256x1 .f32) (harg4 : arg4.IsWhole) (arg5 : Memref sig .tc .vmem S256x1 .f32) (harg5 : arg5.IsWhole)
    (x0 : Vec F S4096x512 .bf16) (x1 : Vec F S1x4096 .i32) (x2 : Vec F S256x1 .i32) (x3 : Vec F S256x1 .f32) :
    out0_A_4 (F := F) c i arg1 harg1 arg2 harg2 arg3 harg3 arg4 harg4 arg5 harg5 x0 x1 x2 x3
      = k0_pay1 (k0_pay2 i (View.ld x0 (Rect.unit (s := S4096x512) (k0_off1 i) S256x512.size (k0_off1_inb i))) x0 x2 x1) x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_run_names
  rw [View.canon_unit_zero hz2]
  simp only [View.readAt_eq_ld, harg1.read_unread, harg2.read_unread, harg3.read_unread, harg4.read_unread,
    View.ld_unit_zero (S := S4096x512) hz2, View.ld_unit_zero (S := S256x1) hz2, View.ld_unit_zero (S := S1x4096) hz2]

end Piece

/-! ## The grid: where each window's block sits -/

/-- Decided over the sixteen points: the grid coordinate is the point's number; the query rows start at row 256 t; the
    feature matrix and the class row are staged whole; the class column, the count column and the output move with t. -/
theorem grid_facts : ∀ t : Fin cfg0.N,
    (grid0.coords t 0).val = t.val
    ∧ k0_off1 (grid0.coords t) (0 : Fin 2) = 256 * t.val ∧ k0_off1 (grid0.coords t) (1 : Fin 2) = 0
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ)

/-- The blocks of the four input windows at point t, by their literal types. -/
abbrev keyBlk (c : Dev nD) (t : Fin cfg0.N) : FVec Ideal S4096x512 .bf16 := iblk m c 0 t
abbrev clsRowBlk (c : Dev nD) (t : Fin cfg0.N) : IVec S1x4096 32 := iblk m c 1 t
abbrev clsColBlk (c : Dev nD) (t : Fin cfg0.N) : IVec S256x1 32 := iblk m c 2 t
abbrev cntBlk (c : Dev nD) (t : Fin cfg0.N) : FVec Ideal S256x1 .f32 := iblk m c 3 t

/-- The key block is the whole feature matrix. -/
theorem keyBlk_apply (c : Dev nD) (t : Fin cfg0.N) (j : Fin 4096) (kk : Fin 512) :
    keyBlk m c t (ix2 j kk) = (V m c main_v6 : S4096x512.Idx → EReal) (ix2 j kk) := by
  obtain ⟨-, -, -, e0, e1, -⟩ := grid_facts t
  unfold keyBlk iblk
  rw [View.read_apply]
  show (V m c main_v6 : S4096x512.Idx → EReal) _ = (V m c main_v6 : S4096x512.Idx → EReal) _
  refine congrArg _ ?_
  funext a; apply Fin.ext
  match a with
  | ⟨0, _⟩ => show win0_0.index t (0 : Fin 2) * 4096 + 1 * j.val = j.val; omega
  | ⟨1, _⟩ => show win0_0.index t (1 : Fin 2) * 512 + 1 * kk.val = kk.val; omega

/-- The class row block is the whole class row. -/
theorem clsRowBlk_apply (c : Dev nD) (t : Fin cfg0.N) (j : Fin 4096) :
    clsRowBlk m c t (ix2 (0 : Fin 1) j) = (V m c main_v15 : S1x4096.Idx → BitVec 32) (ix2 (0 : Fin 1) j) := by
  obtain ⟨-, -, -, -, -, e0, e1, -⟩ := grid_facts t
  unfold clsRowBlk iblk
  rw [View.read_apply]
  show (V m c main_v15 : S1x4096.Idx → BitVec 32) _ = (V m c main_v15 : S1x4096.Idx → BitVec 32) _
  refine congrArg _ ?_
  funext a; apply Fin.ext
  match a with
  | ⟨0, _⟩ => show win0_1.index t (0 : Fin 2) * 1 + 1 * 0 = 0; omega
  | ⟨1, _⟩ => show win0_1.index t (1 : Fin 2) * 4096 + 1 * j.val = j.val; omega

/-- Row p of the class column block is row 256 t + p of the class column. -/
theorem clsColBlk_apply (c : Dev nD) (t : Fin cfg0.N) (p : Fin 256) (i : Fin 4096) (hi : i.val = 256 * t.val + p.val) :
    clsColBlk m c t (ix2 p (0 : Fin 1)) = (V m c main_v14 : S4096x1.Idx → BitVec 32) (ix2 i (0 : Fin 1)) := by
  obtain ⟨-, -, -, -, -, -, -, e0, e1, -⟩ := grid_facts t
  unfold clsColBlk iblk
  rw [View.read_apply]
  show (V m c main_v14 : S4096x1.Idx → BitVec 32) _ = (V m c main_v14 : S4096x1.Idx → BitVec 32) _
  refine congrArg _ ?_
  funext a; apply Fin.ext
  match a with
  | ⟨0, _⟩ => show win0_2.index t (0 : Fin 2) * 256 + 1 * p.val = i.val; omega
  | ⟨1, _⟩ => show win0_2.index t (1 : Fin 2) * 1 + 1 * 0 = 0; omega

/-- Row p of the count block is row 256 t + p of the count column. -/
theorem cntBlk_apply (c : Dev nD) (t : Fin cfg0.N) (p : Fin 256) (i : Fin 4096) (hi : i.val = 256 * t.val + p.val) :
    cntBlk m c t (ix2 p (0 : Fin 1)) = (V m c main_v42 : S4096x1.Idx → EReal) (ix2 i (0 : Fin 1)) := by
  obtain ⟨-, -, -, -, -, -, -, -, -, e0, e1, -⟩ := grid_facts t
  unfold cntBlk iblk
  rw [View.read_apply]
  show (V m c main_v42 : S4096x1.Idx → EReal) _ = (V m c main_v42 : S4096x1.Idx → EReal) _
  refine congrArg _ ?_
  funext a; apply Fin.ext
  match a with
  | ⟨0, _⟩ => show win0_3.index t (0 : Fin 2) * 256 + 1 * p.val = i.val; omega
  | ⟨1, _⟩ => show win0_3.index t (1 : Fin 2) * 1 + 1 * 0 = 0; omega

/-- The query rows: row p of the key block read through the tile's row rectangle is row 256 t + p of the feature matrix. -/
theorem qryBlk_apply (c : Dev nD) (t : Fin cfg0.N) (p : Fin 256) (kk : Fin 512) (i : Fin 4096) (hi : i.val = 256 * t.val + p.val) :
    View.ld (keyBlk m c t) (Rect.unit (s := S4096x512) (k0_off1 (grid0.coords t)) S256x512.size (k0_off1_inb (grid0.coords t))) (ix2 p kk)
      = (V m c main_v6 : S4096x512.Idx → EReal) (ix2 i kk) := by
  obtain ⟨-, o0, o1, -⟩ := grid_facts t
  show keyBlk m c t ((Rect.unit (s := S4096x512) (k0_off1 (grid0.coords t)) S256x512.size (k0_off1_inb (grid0.coords t))).idx (ix2 p kk)) = _
  have e : (Rect.unit (s := S4096x512) (k0_off1 (grid0.coords t)) S256x512.size (k0_off1_inb (grid0.coords t))).idx (ix2 p kk) = ix2 i kk := by
    funext a; apply Fin.ext
    match a with
    | ⟨0, _⟩ => show k0_off1 (grid0.coords t) (0 : Fin 2) + 1 * p.val = i.val; omega
    | ⟨1, _⟩ => show k0_off1 (grid0.coords t) (1 : Fin 2) + 1 * kk.val = kk.val; omega
  rw [e]
  exact keyBlk_apply m c t i kk

/-! ## One row of a tile -/

/-- The body's arithmetic at row p of tile t is the specification's loss of row 256 t + p (classes in their range). -/
theorem row_eq (c : Dev nD)
    (hy : ∀ a : Fin 32, ((m ((c : Thread nD τ).loc main_arg1) : S32.Idx → BitVec 32) (ix1 a)).toNat < 19)
    (t : Fin cfg0.N) (p : Fin 256) (i : Fin 4096) (hi : i.val = 256 * t.val + p.val) :
    k0_pay1 (F := Ideal)
        (k0_pay2 (F := Ideal) (grid0.coords t)
          (View.ld (keyBlk m c t) (Rect.unit (s := S4096x512) (k0_off1 (grid0.coords t)) S256x512.size (k0_off1_inb (grid0.coords t))))
          (keyBlk m c t) (clsColBlk m c t) (clsRowBlk m c t))
        (cntBlk m c t) (ix2 p (0 : Fin 1))
      = PixelContrast.rowLoss (m ((c : Thread nD τ).loc main_arg0)) (m ((c : Thread nD τ).loc main_arg1)) i := by
  obtain ⟨g0, -⟩ := grid_facts t
  refine (KerPay.pay_apply (grid0.coords t) _ (keyBlk m c t) (clsColBlk m c t) (clsRowBlk m c t) (cntBlk m c t) p).trans ?_
  unfold PixelContrast.rowLoss
  have e1 : (fun kk : Fin 512 => (View.ld (Val := Elt Ideal) (e' := EltTy.bf16) (keyBlk m c t) (Rect.unit (s := S4096x512) (k0_off1 (grid0.coords t)) S256x512.size (k0_off1_inb (grid0.coords t))) (ix2 p kk) : EReal))
      = PixelContrast.featOf (m ((c : Thread nD τ).loc main_arg0)) i := by
    funext kk
    exact (qryBlk_apply m c t p kk i hi).trans (KerHost.V_feat m c i kk)
  have e2 : (fun (j : Fin 4096) (kk : Fin 512) => keyBlk m c t (ix2 j kk))
      = PixelContrast.featOf (m ((c : Thread nD τ).loc main_arg0)) := by
    funext j kk
    exact (keyBlk_apply m c t j kk).trans (KerHost.V_feat m c j kk)
  have e3 : clsColBlk m c t (ix2 p (0 : Fin 1)) = PixelContrast.clsOf (m ((c : Thread nD τ).loc main_arg1)) i :=
    (clsColBlk_apply m c t p i hi).trans (KerHost.V_clsRow m c i)
  have e4 : (fun j : Fin 4096 => clsRowBlk m c t (ix2 (0 : Fin 1) j)) = PixelContrast.clsOf (m ((c : Thread nD τ).loc main_arg1)) := by
    funext j
    exact (clsRowBlk_apply m c t j).trans (KerHost.V_clsCol m c j)
  have e5 : 256 * (grid0.coords t 0).val + p.val = i.val := by rw [g0, hi]
  have e6 : cntBlk m c t (ix2 p (0 : Fin 1)) = PixelContrast.posCount (m ((c : Thread nD τ).loc main_arg1)) i :=
    (cntBlk_apply m c t p i hi).trans (KerHost.V_count m c hy i)
  rw [e1, e2, e3, e4, e5, e6]

/-! ## The output array -/

/-- Every row's loss, as a [4096, 1] column. -/
def lossCol (c : Dev nD) : S4096x1.Idx → EReal := fun idx =>
  PixelContrast.rowLoss (m ((c : Thread nD τ).loc main_arg0)) (m ((c : Thread nD τ).loc main_arg1)) ⟨(idx 0).val, idx2_lt0 idx⟩

/-- What point t writes back is its block of the loss column. -/
theorem flushed_eq (c : Dev nD)
    (hy : ∀ a : Fin 32, ((m ((c : Thread nD τ).loc main_arg1) : S32.Idx → BitVec 32) (ix1 a)).toNat < 19)
    (t : Fin cfg0.N) :
    (dats m 0 c).flushed 4 t = ((cfg0.win 4).blk t).view.read (Elt Ideal) (lossCol m c) := by
  obtain ⟨-, -, -, -, -, -, -, -, -, -, -, w0, w1⟩ := grid_facts t
  have hN : t.val < 16 := lt_of_lt_of_eq t.isLt N_0
  show (cfg0.win 4).cut (grid0.coords t) ((dats m 0 c).after 4 t) = _
  rw [after0_4]
  unfold outsAt0
  rw [out_eq_pay]
  refine funext fun (j : S256x1.Idx) => ?_
  obtain ⟨p, rfl⟩ : ∃ p : Fin 256, j = ix2 p (0 : Fin 1) :=
    ⟨j 0, (eq_ix2 j).trans (congrArg (ix2 (j 0)) (Fin.ext (by have h : (j 1).val < 1 := idx2_lt1 j; show (j 1).val = 0; omega)))⟩
  have hp : 256 * t.val + p.val < 4096 := by have := p.isLt; omega
  refine (row_eq m c hy t p ⟨256 * t.val + p.val, hp⟩ rfl).trans ?_
  show _ = lossCol m c (((cfg0.win 4).blk t).view.emb (ix2 p (0 : Fin 1)))
  unfold lossCol
  refine congrArg _ (Fin.ext ?_)
  show 256 * t.val + p.val = win0_4.index t (0 : Fin 2) * 256 + 1 * p.val
  omega

/-- The sixteen blocks cover the column, so the output array ends holding every row's loss. -/
theorem final (c : Dev nD)
    (hy : ∀ a : Fin 32, ((m ((c : Thread nD τ).loc main_arg1) : S32.Idx → BitVec 32) (ix1 a)).toNat < 19) :
    (dats m 0 c).arrAt 4 cfg0.N = lossCol m c :=
  (dats m 0 c).arrAt_eq_of_cover 4 (lossCol m c) (fun t _ => flushed_eq m c hy t) fun (i : S4096x1.Idx) => by
    have hi0 : (i 0).val < 4096 := idx2_lt0 i
    have hi1 : (i 1).val < 1 := idx2_lt1 i
    have hN : cfg0.N = 16 := N_0
    let t : Fin cfg0.N := ⟨(i 0).val / 256, by rw [hN]; omega⟩
    obtain ⟨-, -, -, -, -, -, -, -, -, -, -, w0, w1⟩ := grid_facts t
    have ht : t.val = (i 0).val / 256 := rfl
    refine ⟨t, flush0_4 t, ?_⟩
    show i ∈ ((View.whole main_v43).slice (win0_4.rect t)).set
    rw [View.set_slice_whole, Rect.mem_set_unit]
    intro a
    match a with
    | ⟨0, _⟩ =>
      show win0_4.index t (0 : Fin 2) * 256 ≤ (i 0).val ∧ (i 0).val < win0_4.index t (0 : Fin 2) * 256 + 256
      omega
    | ⟨1, _⟩ =>
      show win0_4.index t (1 : Fin 2) * 1 ≤ (i 1).val ∧ (i 1).val < win0_4.index t (1 : Fin 2) * 1 + 1
      omega

end Cert.KernelIdeal.KerBlock

end
-- ==== Proof.KerRun.lean ====
/-
  The kernel program's run, read: after the pallas_call the host sums the [4096, 1] column of row losses and divides by
  4096, so the result is the specification's mean loss; the two inputs end unchanged.
-/
import proofs.«423666_j37495064494136_3_alg».proof.Proof.KerBlock
import Idealize.ShloMosaic.Lib.StableHlo.Run

set_option maxRecDepth 16384

noncomputable section

open scoped BigOperators

namespace Cert.KernelIdeal.KerRun

open Cert.KernelIdeal Cert.KernelIdeal.Gen Cert.KernelIdeal.KerBlock Idealize.ShloMosaic Idealize.ShloMosaic.TcCoe
open Idealize.ShloMosaic.Tactic Idealize.ShloMosaic.ValueIdx Idealize.SL.Sem Idealize.ShloMosaic.StableHlo

variable (m : (ℓ : Loc nD τ sig) → Buf (Elt Ideal) ℓ) (ρ : Dev nD → PrngReg)

/-- Summing the column over its [4096, 1] indices is summing the row losses over the 4096 rows. -/
theorem sum_lossCol (c : Dev nD) :
    ∑ idx : S4096x1.Idx, lossCol m c idx
      = ∑ i : Fin 4096, PixelContrast.rowLoss (m ((c : Thread nD τ).loc main_arg0)) (m ((c : Thread nD τ).loc main_arg1)) i := by
  rw [sum_idx2]
  refine Finset.sum_congr rfl fun a _ => ?_
  rw [Fin.sum_univ_one]
  rfl

/-- The host operations after the region: the mean of the loss column. -/
theorem tail_eq (c : Dev nD)
    (hy : ∀ a : Fin 32, ((m ((c : Thread nD τ).loc main_arg1) : S32.Idx → BitVec 32) (ix1 a)).toNat < 19) :
    Pipeline.afterTail₀ cfgs (dats m) 0 (V0 m) [hostOps1] c main_v45
      = fun _ => PixelContrast.loss (m ((c : Thread nD τ).loc main_arg0)) (m ((c : Thread nD τ).loc main_arg1)) := by
  unfold Pipeline.afterTail₀
  show StableHlo.after hostOps1 _ (Proc.devRef .tc main_v45) = _
  after_results
  have hA : Pipeline.withArrays (cfgs 0).spec c (V0 m c) (fun w => (dats m 0 c).arrAt w (cfgs 0).N) (Proc.devRef .tc main_v43)
      = lossCol m c :=
    (Pipeline.withArrays_arr spec0 launch0.win.arr_inj c _ _ 4).trans (KerBlock.final m c hy)
  rw [hA]
  funext i
  have hs : Host.reduceAdd (F := Ideal) (lossCol m c) (constant (F := Ideal) S_ .f32 0#32) reducesTo_S4096x1_S_d0_1 h_S_ i
      = 0 + ∑ r : Fin 4096, PixelContrast.rowLoss (m ((c : Thread nD τ).loc main_arg0)) (m ((c : Thread nD τ).loc main_arg1)) r := by
    simp only [Host.reduceAdd, Ideal.hostReduceAdd_def]
    rw [Ideal.hostReduceAdd_total reducesTo_S4096x1_S_d0_1 (fun b => b.elim0) _ _ i, sum_lossCol]
    exact congrArg (· + _) Ideal.ofBits_zero_f32
  show FloatOps.hostDivf (Host.reduceAdd (F := Ideal) (lossCol m c) (constant (F := Ideal) S_ .f32 0#32) reducesTo_S4096x1_S_d0_1 h_S_ i) _ = _
  rw [hs]
  rfl

/-- THE KERNEL'S RUN, READ: every weakly fair execution terminates with the result at the mean loss and the inputs
    unchanged, when every class lies in 0 … 18. -/
theorem run
    (hy : ∀ (c : Dev nD) (a : Fin 32), ((m ((c : Thread nD τ).loc main_arg1) : S32.Idx → BitVec 32) (ix1 a)).toNat < 19) :
    θ_run defs (onTc (τ := τ) (main (F := Ideal))) ⟨m, fun _ => 0, ρ⟩ fun r => ∀ c : Dev nD,
      r.2.mem ((c.tc : Thread nD τ).loc main_v45)
          = (fun _ => PixelContrast.loss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v45 (Pipeline.mem_restRefs_of main_v45 (by decide) (by decide))).trans (tail_eq m c (hy c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerRun

end
-- ==== Proof.PreFacts.lean ====
/-
  What the precondition says of the inputs: every feature is a real number, every class lies in 0 … 18.
-/
import proofs.«423666_j37495064494136_3_alg».proof.Pre_finite_inputs
import proofs.«423666_j37495064494136_3_alg».proof.Proof.Gen.Pre_finite_inputs
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

/-- The scalar shape has one index. -/
private instance subsingleton_scalar : Subsingleton S_.Idx := ⟨fun a b => funext fun d => d.elim0⟩

/-- The pattern 0x7F800000 is +∞. -/
private theorem ofBits_inf : Ideal.ofBits .f32 0x7F800000#32 = (⊤ : EReal) := by
  simp [Ideal.ofBits, Ideal.ieee]

/-- An extended real whose absolute value is below +∞ is a real number. -/
private theorem real_of_abs_lt (x : EReal) (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  induction x using EReal.rec with
  | bot => simp at h
  | top => simp at h
  | coe r => exact ⟨r, rfl⟩

/-- A word that is at least 0 and below 19, signed, is below 19 as a natural number. -/
private theorem toNat_lt_19 (w : BitVec 32) (h0 : IntOp.cmpi .sge w (0#32) = 1#1)
    (h1 : IntOp.cmpi .slt w (19#32) = 1#1) : w.toNat < 19 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- The precondition at the ideal instance: finite features, classes in range. -/
theorem of_pre [Cert.Pre_finite_inputs.Facts] (X : FVec Ideal S32x128x512 .f32) (y : IVec S32 32)
    (h : Cert.Pre_finite_inputs.fn (F := Ideal) X y = fun _ => 1#1) :
    (∀ idx : S32x128x512.Idx, ∃ x : ℝ, X idx = (x : EReal)) ∧ (∀ a : Fin 32, (y (ix1 a)).toNat < 19) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun idx => ?_, fun a => ?_⟩
  · have e := Host.reduce_andi_all _ _ _ _ _ h1 idx
    exact real_of_abs_lt (X idx) e
  · have e2 := Host.reduce_andi_all _ _ _ _ _ h2 (ix1 a)
    have e3 := Host.reduce_andi_all _ _ _ _ _ h3 (ix1 a)
    exact toNat_lt_19 (y (ix1 a)) e2 e3

end Cert.PreFacts

end
-- ==== Proof.lean ====
/-
  The pixel-contrast loss kernel against its jnp reference, over the extended reals.

  Both programs flatten the [32, 128, 512] features view-major (row i is view i / 32 of anchor i % 32), form the Gram
  matrix of the 4096 rows, and for each row take a masked log-softmax over the other classes, summed over the row's
  positives and divided by their number plus eps; the result is the mean of the row losses. They differ in three
  arrangements, each an identity on the extended reals under the precondition (finite features, classes in 0 … 18):
  * the reference divides the Gram matrix by T and then subtracts the row maximum, the kernel subtracts the maximum
    and then multiplies by 1 / T (named exactly the reciprocal of the reference's divisor): a positive factor commutes
    with the maximum and distributes over a difference of reals (Proof/SpecMath.lean);
  * the reference multiplies by 0/1 masks where the kernel selects (Proof/RefLoss.lean);
  * the reference counts a row's positives by summing its mask, the kernel reads 128 · (anchors of the row's class) − 1
    off a 19-bin histogram of the classes, which is the same number when every class is one of the 19 bins
    (Proof/SpecMath.lean count_pos, Proof/KerHost.lean).
  Proof/Spec.lean states the loss once, index by index; the reference's run is read to it in Proof/RefLoss.lean, the
  kernel's — tile by tile (Proof/KerPay.lean, Proof/KerBlock.lean), then the host's final mean (Proof/KerRun.lean) — in
  Proof/KerRun.lean; Proof/PreFacts.lean reads the precondition. The three frames are the programs' runs; the kernel's
  idealization names one constant, and preserves is that name's statement.
-/
import proofs.«423666_j37495064494136_3_alg».proof.Defs
import proofs.«423666_j37495064494136_3_alg».proof.Proof.Gen.Kernel
import proofs.«423666_j37495064494136_3_alg».proof.Proof.Gen.Kernel.Skeleton
import proofs.«423666_j37495064494136_3_alg».proof.Proof.Gen.Kernel.Launch
import proofs.«423666_j37495064494136_3_alg».proof.Proof.Gen.Kernel.Points
import proofs.«423666_j37495064494136_3_alg».proof.Proof.Gen.Kernel.Frame
import proofs.«423666_j37495064494136_3_alg».proof.Proof.Gen.KernelIdeal
import proofs.«423666_j37495064494136_3_alg».proof.Proof.Gen.KernelIdeal.Skeleton
import proofs.«423666_j37495064494136_3_alg».proof.Proof.Gen.KernelIdeal.Launch
import proofs.«423666_j37495064494136_3_alg».proof.Proof.Gen.KernelIdeal.Points
import proofs.«423666_j37495064494136_3_alg».proof.Proof.Gen.KernelIdeal.Frame
import proofs.«423666_j37495064494136_3_alg».proof.Proof.Gen.ReferenceIdeal
import proofs.«423666_j37495064494136_3_alg».proof.Proof.Gen.Pre_finite_inputs
import proofs.«423666_j37495064494136_3_alg».proof.Proof.RefLoss
import proofs.«423666_j37495064494136_3_alg».proof.Proof.KerRun
import proofs.«423666_j37495064494136_3_alg».proof.Proof.PreFacts
import Idealize.ShloMosaic.Adequacy
import Idealize.ShloMosaic.Init

noncomputable section

namespace Cert.Proof

open Idealize.ShloMosaic Idealize.SL.Sem

/-- The kernel as printed runs and leaves its inputs unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: 1 / T reads as 2^27 / 9395241, the reciprocal of the reference's divisor. -/
theorem preserves : Cert.preserves_Kernel_KernelIdeal :=
  IdealRules.named_const.statement Cert.KernelIdeal.κ "inv_temperature" .f32 0x41649249#32
    ((134217728 / 9395241 : ℝ) : EReal) rfl

/-- Both idealized programs end at the specification's mean loss of the (agreeing) inputs. -/
theorem algebraic : Cert.algebraic_KernelIdeal_ReferenceIdeal := by
  intro m ρ m' ρ' hpre hagree
  have hp := fun c : Dev Cert.KernelIdeal.nD => Cert.PreFacts.of_pre _ _ (hpre c)
  refine ⟨fun c => fun _ => PixelContrast.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerRun.run m ρ (fun c => (hp c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2]
  exact Cert.ReferenceIdeal.RefLoss.ref_loss _ _ (hp c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
